-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S128x128 : Shape := ⟨2, ![128, 128]⟩
abbrev S640000 : Shape := ⟨1, ![640000]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S640000 : S_.BroadcastsInDim S640000 (![] : Fin 0 → Fin S640000.rank)
  reducesTo_S640000_S_d0 : S640000.ReducesTo [0] S_

variable [Facts]

def fn_part1 {F : FTy → Type} [FloatOps F] (main_arg2 : IVec S640000 32) (main_arg3 : IVec S640000 32) (main_v13 : IVec S_ 1) (main_v15 : IVec S640000 1) (main_c_5 : IVec S_ 1) : IVec S_ 1 :=
  let main_v16 : IVec S_ 1 := (fun x v => Host.reduce IntOp.andi x v reducesTo_S640000_S_d0 h_S_) main_v15 main_c_5
  let main_v17 : IVec S_ 1 := andi main_v13 main_v16
  let main_c_6 : IVec S_ 32 := constantI S_ 32 10000#32
  let main_v18 : IVec S640000 32 := broadcastInDim S640000 ![] bcast_S_S640000 main_c_6
  let main_v19 : IVec S640000 1 := cmpi .slt main_arg2 main_v18
  let main_c_7 : IVec S_ 1 := constantI S_ 1 1#1
  let main_v20 : IVec S_ 1 := (fun x v => Host.reduce IntOp.andi x v reducesTo_S640000_S_d0 h_S_) main_v19 main_c_7
  let main_v21 : IVec S_ 1 := andi main_v17 main_v20
  let main_c_8 : IVec S_ 32 := constantI S_ 32 0#32
  let main_v22 : IVec S640000 32 := broadcastInDim S640000 ![] bcast_S_S640000 main_c_8
  let main_v23 : IVec S640000 1 := cmpi .sge main_arg3 main_v22
  let main_c_9 : IVec S_ 1 := constantI S_ 1 1#1
  let main_v24 : IVec S_ 1 := (fun x v => Host.reduce IntOp.andi x v reducesTo_S640000_S_d0 h_S_) main_v23 main_c_9
  let main_v25 : IVec S_ 1 := andi main_v21 main_v24
  let main_c_10 : IVec S_ 32 := constantI S_ 32 10000#32
  let main_v26 : IVec S640000 32 := broadcastInDim S640000 ![] bcast_S_S640000 main_c_10
  let main_v27 : IVec S640000 1 := cmpi .slt main_arg3 main_v26
  let main_c_11 : IVec S_ 1 := constantI S_ 1 1#1
  let main_v28 : IVec S_ 1 := (fun x v => Host.reduce IntOp.andi x v reducesTo_S640000_S_d0 h_S_) main_v27 main_c_11
  let main_v29 : IVec S_ 1 := andi main_v25 main_v28
  main_v29

def fn {F : FTy → Type} [FloatOps F] (main_arg0 : FVec F S10000x128 .f32) (main_arg1 : FVec F S128x128 .f32) (main_arg2 : IVec S640000 32) (main_arg3 : IVec S640000 32) (main_arg4 : FVec F S640000 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S640000 .f32 := Host.absf main_arg4
  let main_cst_2 : FVec F S_ .f32 := constant S_ .f32 0x7F800000#32
  let main_v10 : FVec F S640000 .f32 := broadcastInDim S640000 ![] bcast_S_S640000 main_cst_2
  let main_v11 : IVec S640000 1 := cmpf .olt main_v9 main_v10
  let main_c_3 : IVec S_ 1 := constantI S_ 1 1#1
  let main_v12 : IVec S_ 1 := (fun x v => Host.reduce IntOp.andi x v reducesTo_S640000_S_d0 h_S_) main_v11 main_c_3
  let main_v13 : IVec S_ 1 := andi main_v8 main_v12
  let main_c_4 : IVec S_ 32 := constantI S_ 32 0#32
  let main_v14 : IVec S640000 32 := broadcastInDim S640000 ![] bcast_S_S640000 main_c_4
  let main_v15 : IVec S640000 1 := cmpi .sge main_arg2 main_v14
  let main_c_5 : IVec S_ 1 := constantI S_ 1 1#1
  fn_part1 (F := F) main_arg2 main_arg3 main_v13 main_v15 main_c_5
-- ==== Kernel.lean ====
abbrev S10000x128 : Shape := ⟨2, ![10000, 128]⟩
abbrev S128x128 : Shape := ⟨2, ![128, 128]⟩
abbrev S640000 : Shape := ⟨1, ![640000]⟩
abbrev S_ : Shape := ⟨0, ![]⟩
abbrev S10112x128 : Shape := ⟨2, ![10112, 128]⟩
abbrev S5056x128 : Shape := ⟨2, ![5056, 128]⟩
abbrev S102252544 : Shape := ⟨1, ![102252544]⟩
abbrev S640000x1 : Shape := ⟨2, ![640000, 1]⟩
abbrev S10112x10112 : Shape := ⟨2, ![10112, 10112]⟩
abbrev S632x10112 : Shape := ⟨2, ![632, 10112]⟩
abbrev S632x128 : Shape := ⟨2, ![632, 128]⟩

abbrev nBuf : Space → Nat
  | .hbm => 21
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S128x128, .f32⟩
  | .hbm, ⟨2, _⟩ => ⟨S640000, .i32⟩
  | .hbm, ⟨3, _⟩ => ⟨S640000, .i32⟩
  | .hbm, ⟨4, _⟩ => ⟨S640000, .f32⟩
  | .hbm, ⟨5, _⟩ => ⟨S_, .i32⟩
  | .hbm, ⟨6, _⟩ => ⟨S_, .f32⟩
  | .hbm, ⟨7, _⟩ => ⟨S10112x128, .f32⟩
  | .hbm, ⟨8, _⟩ => ⟨S10112x128, .bf16⟩
  | .hbm, ⟨9, _⟩ => ⟨S_, .i32⟩
  | .hbm, ⟨10, _⟩ => ⟨S640000, .i32⟩
  | .hbm, ⟨11, _⟩ => ⟨S640000, .i32⟩
  | .hbm, ⟨12, _⟩ => ⟨S640000, .i32⟩
  | .hbm, ⟨13, _⟩ => ⟨S_, .f32⟩
  | .hbm, ⟨14, _⟩ => ⟨S102252544, .f32⟩
  | .hbm, ⟨15, _⟩ => ⟨S640000x1, .i32⟩
  | .hbm, ⟨16, _⟩ => ⟨S102252544, .f32⟩
  | .hbm, ⟨17, _⟩ => ⟨S10112x10112, .f32⟩
  | .hbm, ⟨18, _⟩ => ⟨S10112x10112, .bf16⟩
  | .hbm, ⟨19, _⟩ => ⟨S10112x128, .f32⟩
  | .hbm, ⟨20, _⟩ => ⟨S10000x128, .f32⟩
  | .local _ .vmem, ⟨0, _⟩ => ⟨S5056x128, .f32⟩
  | .local _ .vmem, ⟨1, _⟩ => ⟨S5056x128, .f32⟩
  | .local _ .vmem, ⟨2, _⟩ => ⟨S128x128, .f32⟩
  | .local _ .vmem, ⟨3, _⟩ => ⟨S5056x128, .bf16⟩
  | .local _ .vmem, ⟨4, _⟩ => ⟨S5056x128, .bf16⟩
  | .local _ .vmem, ⟨5, _⟩ => ⟨S632x10112, .bf16⟩
  | .local _ .vmem, ⟨6, _⟩ => ⟨S632x10112, .bf16⟩
  | .local _ .vmem, ⟨7, _⟩ => ⟨S10112x128, .bf16⟩
  | .local _ .vmem, ⟨8, _⟩ => ⟨S632x128, .f32⟩
  | .local _ .vmem, ⟨9, _⟩ => ⟨S632x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5056x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5056x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S632x10112 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10112x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S632x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  pads_S10000x128_S10112x128_01120_000 : S10000x128.Pads (![0, 0] : Fin 2 → Nat) ![112, 0] ![0, 0] S10112x128
  h_S_ : 0 < S_.numel
  inb_S5056x128_S5056x128_0_0 : ∀ a, (![0, 0] : Fin 2 → Nat) a + S5056x128.size a ≤ S5056x128.size a
  h_S5056x128 : 0 < S5056x128.numel
  shapeCasts_S5056x128_S5056x128 : S5056x128.ShapeCasts S5056x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S5056x128_S5056x128_0_0 : (Rect.unit (s := S5056x128) ![0, 0] S5056x128.size inb_S5056x128_S5056x128_0_0).PackedRows (EltTy.packing .bf16)
  bcast_S_S640000 : S_.BroadcastsInDim S640000 (![] : Fin 0 → Fin S640000.rank)
  bcast_S_S102252544 : S_.BroadcastsInDim S102252544 (![] : Fin 0 → Fin S102252544.rank)
  bcast_S640000_S640000x1_0 : S640000.BroadcastsInDim S640000x1 (![0] : Fin 1 → Fin S640000x1.rank)
  shapeCasts_S102252544_S10112x10112 : S102252544.ShapeCasts S10112x10112
  inb_S632x10112_S632x10112_0_0 : ∀ a, (![0, 0] : Fin 2 → Nat) a + S632x10112.size a ≤ S632x10112.size a
  h_S632x10112 : 0 < S632x10112.numel
  shapeCasts_S632x10112_S632x10112 : S632x10112.ShapeCasts S632x10112
  inb_S10112x128_S10112x128_0_0 : ∀ a, (![0, 0] : Fin 2 → Nat) a + S10112x128.size a ≤ S10112x128.size a
  h_S10112x128 : 0 < S10112x128.numel
  shapeCasts_S10112x128_S10112x128 : S10112x128.ShapeCasts S10112x128
  inb_S632x128_S632x128_0_0 : ∀ a, (![0, 0] : Fin 2 → Nat) a + S632x128.size a ≤ S632x128.size a
  h_S632x128 : 0 < S632x128.numel
  slices_S10112x128_S10000x128_0_0 : S10112x128.Slices ![0, 0] S10000x128
  dot_S5056x128_S128x128_S5056x128_1_1_0_0_n_n_wf : DotDims.WF S5056x128 S128x128 S5056x128 [1] [1] [0] [0] [] []
  scatter_S102252544_S640000x1_S640000_n_0_0_1_wf : ScatterDims.WF S102252544 S640000x1 S640000 [] [0] [0] 1
  dot_S632x10112_S10112x128_S632x128_1_0_0_1_n_n_wf : DotDims.WF S632x10112 S10112x128 S632x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5056x128.size a ≤ S10112x128.size a
  hwx0_0 : ∀ i : grid0.Coords, EltTy.bits .f32 = 32 ∨ (Rect.block (s := S10112x128) S5056x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5056x128.size a ≤ S10112x128.size a
  hwx0_2 : ∀ i : grid0.Coords, EltTy.bits .bf16 = 32 ∨ (Rect.block (s := S10112x128) S5056x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S632x10112.size a ≤ S10112x10112.size a
  hwx1_0 : ∀ i : grid1.Coords, EltTy.bits .bf16 = 32 ∨ (Rect.block (s := S10112x10112) S632x10112.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10112x128.size a ≤ S10112x128.size a
  hwx1_1 : ∀ i : grid1.Coords, EltTy.bits .bf16 = 32 ∨ (Rect.block (s := S10112x128) S10112x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S632x128.size a ≤ S10112x128.size a
  hwx1_2 : ∀ i : grid1.Coords, EltTy.bits .f32 = 32 ∨ (Rect.block (s := S10112x128) S632x128.size (cc1_transform_2 i) (hinb1_2 i)).WholeWords (EltTy.packing .f32)

variable [Facts₀]

def dot_S5056x128_S128x128_S5056x128_1_1_0_0_n_n : DotDims S5056x128 S128x128 S5056x128 where
  lhsContracting := [1]
  rhsContracting := [1]
  lhsNonContracting := [0]
  rhsNonContracting := [0]
  lhsBatch := []
  rhsBatch := []
  wf := dot_S5056x128_S128x128_S5056x128_1_1_0_0_n_n_wf
def scatter_S102252544_S640000x1_S640000_n_0_0_1 : ScatterDims S102252544 S640000x1 S640000 where
  updateWindowDims := []
  insertedWindowDims := [0]
  scatterDimsToOperandDims := [0]
  indexVectorDim := 1
  wf := scatter_S102252544_S640000x1_S640000_n_0_0_1_wf
def dot_S632x10112_S10112x128_S632x128_1_0_0_1_n_n : DotDims S632x10112 S10112x128 S632x128 where
  lhsContracting := [1]
  rhsContracting := [0]
  lhsNonContracting := [0]
  rhsNonContracting := [1]
  lhsBatch := []
  rhsBatch := []
  wf := dot_S632x10112_S10112x128_S632x128_1_0_0_1_n_n_wf

abbrev win0_0 : Pipeline.Window sig grid0 :=
  Pipeline.Window.ofSpec (Memref.whole main_v0) S5056x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S5056x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v9) S632x10112.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S10112x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S632x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000x128 : Shape := ⟨2, ![10000, 128]⟩
abbrev S128x128 : Shape := ⟨2, ![128, 128]⟩
abbrev S640000 : Shape := ⟨1, ![640000]⟩
abbrev S640000x1 : Shape := ⟨2, ![640000, 1]⟩
abbrev S_ : Shape := ⟨0, ![]⟩
abbrev S640000x128 : Shape := ⟨2, ![640000, 128]⟩

abbrev nBuf : Space → Nat
  | .hbm => 22
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S128x128, .f32⟩
  | .hbm, ⟨2, _⟩ => ⟨S640000, .i32⟩
  | .hbm, ⟨3, _⟩ => ⟨S640000, .i32⟩
  | .hbm, ⟨4, _⟩ => ⟨S640000, .f32⟩
  | .hbm, ⟨5, _⟩ => ⟨S10000x128, .f32⟩
  | .hbm, ⟨6, _⟩ => ⟨S640000x1, .f32⟩
  | .hbm, ⟨7, _⟩ => ⟨S_, .i32⟩
  | .hbm, ⟨8, _⟩ => ⟨S640000, .i32⟩
  | .hbm, ⟨9, _⟩ => ⟨S640000, .i1⟩
  | .hbm, ⟨10, _⟩ => ⟨S_, .i32⟩
  | .hbm, ⟨11, _⟩ => ⟨S640000, .i32⟩
  | .hbm, ⟨12, _⟩ => ⟨S640000, .i32⟩
  | .hbm, ⟨13, _⟩ => ⟨S640000, .i32⟩
  | .hbm, ⟨14, _⟩ => ⟨S640000x1, .i32⟩
  | .hbm, ⟨15, _⟩ => ⟨S640000x128, .f32⟩
  | .hbm, ⟨16, _⟩ => ⟨S640000x128, .f32⟩
  | .hbm, ⟨17, _⟩ => ⟨S640000x128, .f32⟩
  | .hbm, ⟨18, _⟩ => ⟨S_, .f32⟩
  | .hbm, ⟨19, _⟩ => ⟨S10000x128, .f32⟩
  | .hbm, ⟨20, _⟩ => ⟨S640000x1, .i32⟩
  | .hbm, ⟨21, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S640000_S640000x1_0 : S640000.BroadcastsInDim S640000x1 (![0] : Fin 1 → Fin S640000x1.rank)
  bcast_S_S640000 : S_.BroadcastsInDim S640000 (![] : Fin 0 → Fin S640000.rank)
  bcast_S640000x1_S640000x128_0_1 : S640000x1.BroadcastsInDim S640000x128 (![0, 1] : Fin 2 → Fin S640000x128.rank)
  bcast_S_S10000x128 : S_.BroadcastsInDim S10000x128 (![] : Fin 0 → Fin S10000x128.rank)
  dot_S10000x128_S128x128_S10000x128_1_1_0_0_n_n_wf : DotDims.WF S10000x128 S128x128 S10000x128 [1] [1] [0] [0] [] []
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf

class Facts : Prop extends Facts₀ where

variable [Facts]
-- ==== Proof.LibDotNT.lean ====
/-
  A matrix product against a transposed right operand, read at one entry. For the dimension numbers "rows × contraction
  by columns × contraction" with no batch axis (both operands contracted on their last axis), the product into a zero
  accumulator, at row `r` and column `q`, is the sum over the contracted coordinate `j` of the left operand at (r, j)
  times the right operand at (q, j). The same holds for the host's `dot_general`. Both are stated over extended reals,
  where the product is the exact sum.
-/
import Idealize.ShloMosaic.PureOps.Ideal.Laws
import Idealize.ShloMosaic.Lib.ValueIdx

noncomputable section

open scoped BigOperators

namespace Cert.LibDotNT

open Idealize.ShloMosaic Idealize.ShloMosaic.ValueIdx

/-- The left operand's index at output entry (r, q) and contracted coordinate `j` is (r, j). -/
theorem nt_lhsIdx (M K N : Nat) (r : Fin M) (q : Fin N) (j : Fin K) :
    (DotDims.transposedRhs M K N).lhsIdx (ix2 r q) ((contrEquiv1 (DotDims.transposedRhs M K N) K rfl rfl).symm j) = ix2 r j := by
  have hj := contrEquiv1_symm_val (DotDims.transposedRhs M K N) K rfl rfl j
  funext a
  apply Fin.ext
  match a with
  | ⟨0, _⟩ => rfl
  | ⟨1, _⟩ => refine Eq.trans ?_ hj; rfl

/-- The right operand's index at output entry (r, q) and contracted coordinate `j` is (q, j): its row is the output's
    column, its column the contracted coordinate. -/
theorem nt_rhsIdx (M K N : Nat) (r : Fin M) (q : Fin N) (j : Fin K) :
    (DotDims.transposedRhs M K N).rhsIdx (ix2 r q) ((contrEquiv1 (DotDims.transposedRhs M K N) K rfl rfl).symm j) = ix2 q j := by
  have hj := contrEquiv1_symm_val (DotDims.transposedRhs M K N) K rfl rfl j
  funext a
  apply Fin.ext
  match a with
  | ⟨0, _⟩ => rfl
  | ⟨1, _⟩ => refine Eq.trans ?_ hj; rfl

/-- The matrix unit's product against a transposed right operand into a zero accumulator, at one entry. -/
theorem matmul_nt_apply {φ₁ φ₂ : FTy} (M K N : Nat) (prec : Option ContractPrecision)
    (A : FVec Ideal ⟨2, ![M, K]⟩ φ₁) (B : FVec Ideal ⟨2, ![N, K]⟩ φ₂) (r : Fin M) (q : Fin N) :
    FloatOps.matmul (DotDims.transposedRhs M K N) prec A B (constant ⟨2, ![M, N]⟩ .f32 0x00000000#32) (ix2 r q)
      = ∑ j : Fin K, A (ix2 r j) * B (ix2 q j) := by
  rw [Ideal.matmul_constant_zero_apply, ← Equiv.sum_comp (contrEquiv1 (DotDims.transposedRhs M K N) K rfl rfl).symm]
  refine Finset.sum_congr rfl fun j _ => ?_
  rw [nt_lhsIdx, nt_rhsIdx]

/-- The host's `dot_general` against a transposed right operand, at one entry. -/
theorem dotGeneral_nt_apply {φ₁ φ₂ : FTy} (M K N : Nat) (prec : Option ContractPrecision) (sched : HostSchedule)
    (A : FVec Ideal ⟨2, ![M, K]⟩ φ₁) (B : FVec Ideal ⟨2, ![N, K]⟩ φ₂) (r : Fin M) (q : Fin N) :
    FloatOps.dotGeneral (DotDims.transposedRhs M K N) prec sched A B (ix2 r q) = ∑ j : Fin K, A (ix2 r j) * B (ix2 q j) := by
  rw [Ideal.dotGeneral_apply, ← Equiv.sum_comp (contrEquiv1 (DotDims.transposedRhs M K N) K rfl rfl).symm]
  refine Finset.sum_congr rfl fun j _ => ?_
  rw [nt_lhsIdx, nt_rhsIdx]

end Cert.LibDotNT

end
-- ==== Proof.LibPlainDot.lean ====
/-
  A plain matrix product read at one entry. For the dimension numbers "rows × contraction by contraction × columns"
  with no batch axis, the product into a zero accumulator, at row `r` and column `q`, is the sum over the contracted
  coordinate `j` of the left operand at (r, j) times the right operand at (j, q). The same holds for the host's
  `dot_general`. Both are stated over extended reals, where the product is the exact sum.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The left operand's index at output entry (r, q) and contracted coordinate `j` is (r, j). -/
theorem plain_lhsIdx (M K N : Nat) (r : Fin M) (q : Fin N) (j : Fin K) :
    (DotDims.plain M K N).lhsIdx (ix2 r q) ((contrEquiv1 (DotDims.plain M K N) K rfl rfl).symm j) = ix2 r j := by
  have hj := contrEquiv1_symm_val (DotDims.plain M K N) K rfl rfl j
  funext a
  apply Fin.ext
  match a with
  | ⟨0, _⟩ => rfl
  | ⟨1, _⟩ => refine Eq.trans ?_ hj; rfl

/-- The right operand's index at output entry (r, q) and contracted coordinate `j` is (j, q). -/
theorem plain_rhsIdx (M K N : Nat) (r : Fin M) (q : Fin N) (j : Fin K) :
    (DotDims.plain M K N).rhsIdx (ix2 r q) ((contrEquiv1 (DotDims.plain M K N) K rfl rfl).symm j) = ix2 j q := by
  have hj := contrEquiv1_symm_val (DotDims.plain M K N) K rfl rfl j
  funext a
  apply Fin.ext
  match a with
  | ⟨0, _⟩ => refine Eq.trans ?_ hj; rfl
  | ⟨1, _⟩ => rfl

/-- The matrix unit's product into a zero accumulator, at one entry. -/
theorem matmul_plain_apply {φ₁ φ₂ : FTy} (M K N : Nat) (prec : Option ContractPrecision)
    (A : FVec Ideal ⟨2, ![M, K]⟩ φ₁) (B : FVec Ideal ⟨2, ![K, N]⟩ φ₂) (r : Fin M) (q : Fin N) :
    FloatOps.matmul (DotDims.plain M K N) prec A B (constant ⟨2, ![M, N]⟩ .f32 0x00000000#32) (ix2 r q)
      = ∑ j : Fin K, A (ix2 r j) * B (ix2 j q) := by
  rw [Ideal.matmul_constant_zero_apply, ← Equiv.sum_comp (contrEquiv1 (DotDims.plain M K N) K rfl rfl).symm]
  refine Finset.sum_congr rfl fun j _ => ?_
  rw [plain_lhsIdx, plain_rhsIdx]

/-- The host's `dot_general`, at one entry. -/
theorem dotGeneral_plain_apply {φ₁ φ₂ : FTy} (M K N : Nat) (prec : Option ContractPrecision) (sched : HostSchedule)
    (A : FVec Ideal ⟨2, ![M, K]⟩ φ₁) (B : FVec Ideal ⟨2, ![K, N]⟩ φ₂) (r : Fin M) (q : Fin N) :
    FloatOps.dotGeneral (DotDims.plain M K N) prec sched A B (ix2 r q) = ∑ j : Fin K, A (ix2 r j) * B (ix2 j q) := by
  rw [Ideal.dotGeneral_apply, ← Equiv.sum_comp (contrEquiv1 (DotDims.plain M K N) K rfl rfl).symm]
  refine Finset.sum_congr rfl fun j _ => ?_
  rw [plain_lhsIdx, plain_rhsIdx]

end Cert.LibPlainDot

end
-- ==== Proof.Payloads.lean ====
/-
  The two kernel bodies at an entry, over the extended reals.

  The first body projects a block of node rows by the weight: entry (r, q) of what it stores is the sum over the 128 input
  channels `i` of the block's entry (r, i) times the weight's entry (q, i) (the weight is stored output channel by input
  channel, so the product contracts both operands on their last axis); the changes of float format around the product are
  the identity. The second body multiplies a block of adjacency rows by the whole projected array: entry (r, q) is the sum
  over the 10112 node columns `s` of the adjacency block's entry (r, s) times the projected entry (s, q).
-/
import proofs.«423122_j58557584113800_2_alg».proof.Proof.Gen.KernelIdeal.Skeleton
import proofs.«423122_j58557584113800_2_alg».proof.Proof.LibDotNT
import proofs.«423122_j58557584113800_2_alg».proof.Proof.LibPlainDot
import Idealize.ShloMosaic.Lib.Pipeline.Value
import Idealize.ShloMosaic.Lib.ValueIdx

noncomputable section

open scoped BigOperators

namespace Cert.KernelIdeal.Payloads

open Cert.KernelIdeal Cert.KernelIdeal.Gen Idealize.ShloMosaic Idealize.ShloMosaic.ValueIdx

/-- The projection body at entry (r, q): the block's row `r` against the weight's row `q`. -/
theorem project_apply (x0 : FVec Ideal S5056x128 .f32) (x1 : FVec Ideal S128x128 .f32) (r : Fin 5056) (q : Fin 128) :
    k0_pay1 (F := Ideal) x0 x1 (ix2 r q) = ∑ i : Fin 128, x0 (ix2 r i) * x1 (ix2 q i) := by
  unfold k0_pay1
  rw [shapeCast_self]
  exact Cert.LibDotNT.matmul_nt_apply 5056 128 128 none x0 x1 r q

/-- The adjacency body at entry (r, q): the adjacency block's row `r` against the projected array's column `q`. -/
theorem spmm_apply (a0 : FVec Ideal S632x10112 .bf16) (h0 : FVec Ideal S10112x128 .bf16) (r : Fin 632) (q : Fin 128) :
    k1_pay1 (F := Ideal) a0 h0 (ix2 r q) = ∑ s : Fin 10112, a0 (ix2 r s) * h0 (ix2 s q) := by
  unfold k1_pay1
  rw [shapeCast_self, shapeCast_self]
  exact Cert.LibPlainDot.matmul_plain_apply 632 10112 128 none a0 h0 r q

/-- The projection body at any entry `y` of its block. -/
theorem project_at (x0 : FVec Ideal S5056x128 .f32) (x1 : FVec Ideal S128x128 .f32) (y : S5056x128.Idx) :
    k0_pay1 (F := Ideal) x0 x1 y = ∑ i : Fin 128, x0 (ix2 (y 0) i) * x1 (ix2 (y 1) i) := by
  obtain ⟨r, q, rfl⟩ : ∃ (r : Fin 5056) (q : Fin 128), y = ix2 r q := ⟨y 0, y 1, eq_ix2 y⟩
  exact project_apply x0 x1 r q

/-- The adjacency body at any entry `y` of its block. -/
theorem spmm_at (a0 : FVec Ideal S632x10112 .bf16) (h0 : FVec Ideal S10112x128 .bf16) (y : S632x128.Idx) :
    k1_pay1 (F := Ideal) a0 h0 y = ∑ s : Fin 10112, a0 (ix2 (y 0) s) * h0 (ix2 s (y 1)) := by
  obtain ⟨r, q, rfl⟩ : ∃ (r : Fin 632) (q : Fin 128), y = ix2 r q := ⟨y 0, y 1, eq_ix2 y⟩
  exact spmm_apply a0 h0 r q

end Cert.KernelIdeal.Payloads

end
-- ==== Proof.Region0.lean ====
/-
  The first region's result as ONE function of the arrays it finds.

  The grid has two points; point `t` reads rows 5056·t … 5056·t + 5055 of the padded node array and the whole weight, and
  writes back the same rows of the projected array. What it writes at row `r`, output channel `q` of its block is the sum
  over the input channels `i` of node row 5056·t + r, channel `i`, times the weight at (q, i): entry (5056·t + r, q) of the
  function `proj` below. The two blocks tile the 10112 rows, so after the region the projected array is `proj` everywhere.
-/
import proofs.«423122_j58557584113800_2_alg».proof.Proof.Gen.KernelIdeal.Frame
import proofs.«423122_j58557584113800_2_alg».proof.Proof.Payloads
import Idealize.ShloMosaic.Lib.Pipeline.Value
import Idealize.ShloMosaic.Lib.Tactic

set_option maxRecDepth 16384

noncomputable section

open scoped BigOperators

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Every padded node row projected by the weight: entry (n, q) is the sum over the input channels `i` of the node
    array at (n, i) times the weight at (q, i). -/
def proj (xp : FVec Ideal S10112x128 .f32) (W : FVec Ideal S128x128 .f32) : FVec Ideal S10112x128 .bf16 :=
  fun j => ∑ i : Fin 128, xp (ix2 (j 0) i) * W (ix2 (j 1) i)

/-- The printed index maps over the two points: the node rows' and the result's block index is the point, every other
    block index is zero. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The node rows' block at point `t` is rows 5056·t … of the node array. -/
theorem nodes_apply (c : Dev nD) (t : Fin cfg0.N) (y : S5056x128.Idx) (k : S10112x128.Idx)
    (hk0 : (k 0).val = t.val * 5056 + (y 0).val) (hk1 : (k 1).val = (y 1).val) :
    (iblk0 V c 0 t : Vec Ideal S5056x128 .f32) y = (V c main_v0 : S10112x128.Idx → Elt Ideal .f32) k := by
  obtain ⟨e0, e1, -⟩ := idx0 t
  unfold iblk0
  rw [View.read_apply]
  show V c main_v0 _ = V c main_v0 _
  congr 1
  funext a
  apply Fin.ext
  match a with
  | ⟨0, _⟩ => show win0_0.index t 0 * 5056 + 1 * (y 0).val = (k 0).val; rw [e0, hk0]; omega
  | ⟨1, _⟩ => show win0_0.index t 1 * 128 + 1 * (y 1).val = (k 1).val; rw [e1, hk1]; omega

/-- The weight's block at every point is the whole weight. -/
theorem weight_apply (c : Dev nD) (t : Fin cfg0.N) (y : S128x128.Idx) (k : S128x128.Idx)
    (hk0 : (k 0).val = (y 0).val) (hk1 : (k 1).val = (y 1).val) :
    (iblk0 V c 1 t : Vec Ideal S128x128 .f32) y = (V c main_arg1 : S128x128.Idx → Elt Ideal .f32) k := by
  obtain ⟨-, -, e2, e3, -⟩ := idx0 t
  unfold iblk0
  rw [View.read_apply]
  show V c main_arg1 _ = V c main_arg1 _
  congr 1
  funext a
  apply Fin.ext
  match a with
  | ⟨0, _⟩ => show win0_1.index t 0 * 128 + 1 * (y 0).val = (k 0).val; rw [e2, hk0]; omega
  | ⟨1, _⟩ => show win0_1.index t 1 * 128 + 1 * (y 1).val = (k 1).val; rw [e3, hk1]; omega

/-- What point `t` writes back is block `t` of `proj` of the arrays as the region finds them. -/
theorem flushed_eq (c : Dev nD) (t : Fin cfg0.N) :
    (dat0 V c).flushed 2 t = ((cfg0.win 2).blk t).view.read (Elt Ideal) (proj (V c main_v0) (V c main_arg1)) := by
  show (cfg0.win 2).cut (grid0.coords t) ((dat0 V c).after 2 t) = _
  rw [after0_2]
  unfold out0_2
  rw [View.canon_unit_zero hz]
  simp only [View.ld_unit_zero (S := S5056x128) hz, View.ld_unit_zero (S := S128x128) hz]
  obtain ⟨-, -, -, -, e4, e5⟩ := idx0 t
  funext j
  refine (Payloads.project_at (iblk0 V c 0 t) (iblk0 V c 1 t) ((cfg0.win 2).xinj (grid0.coords t) j)).trans ?_
  rw [View.read_apply]
  show _ = proj (V c main_v0) (V c main_arg1) (((cfg0.win 2).blk t).view.emb j)
  unfold proj
  have k0 : ((((cfg0.win 2).blk t).view.emb j) 0).val = t.val * 5056 + (j 0).val := by
    show win0_2.index t 0 * 5056 + 1 * (j 0).val = _; rw [e4]; omega
  have k1 : ((((cfg0.win 2).blk t).view.emb j) 1).val = (j 1).val := by
    show win0_2.index t 1 * 128 + 1 * (j 1).val = _; rw [e5]; omega
  refine Finset.sum_congr rfl fun i _ => ?_
  rw [nodes_apply V c t (ix2 (((cfg0.win 2).xinj (grid0.coords t) j) 0) i) (ix2 ((((cfg0.win 2).blk t).view.emb j) 0) i) k0 rfl,
    weight_apply V c t (ix2 (((cfg0.win 2).xinj (grid0.coords t) j) 1) i) (ix2 ((((cfg0.win 2).blk t).view.emb j) 1) i) k1 rfl]

/-- An index of the projected array is in point `t`'s block iff each coordinate is in the block's range on its axis. -/
theorem mem_blk (t : Fin cfg0.N) (i : S10112x128.Idx) :
    i ∈ ((cfg0.win 2).blk t).view.set ↔ ∀ a : Fin 2, win0_2.index t a * S5056x128.size a ≤ (i a).val
      ∧ (i a).val < win0_2.index t a * S5056x128.size a + S5056x128.size a := by
  show i ∈ ((View.whole main_v1).slice (win0_2.rect t)).set ↔ _
  rw [View.set_slice_whole, Rect.mem_set_unit]
  exact Iff.rfl

/-- After the region the projected array is `proj` of the node array and the weight as the region found them: the two
    points' blocks tile the rows. -/
theorem final (c : Dev nD) : (dat0 V c).arrAt 2 cfg0.N = proj (V c main_v0) (V c main_arg1) :=
  (dat0 V c).arrAt_eq_of_cover 2 (proj (V c main_v0) (V c main_arg1)) (fun t _ => flushed_eq V c t) fun i => by
    have hi0 : ((i : S10112x128.Idx) 0).val < 10112 := ((i : S10112x128.Idx) 0).isLt
    have hi1 : ((i : S10112x128.Idx) 1).val < 128 := ((i : S10112x128.Idx) 1).isLt
    have hN : cfg0.N = 2 := N_0
    refine ⟨⟨((i : S10112x128.Idx) 0).val / 5056, by rw [hN]; omega⟩, flush0_2 _, ?_⟩
    rw [mem_blk]
    obtain ⟨-, -, -, -, e4, e5⟩ := idx0 ⟨((i : S10112x128.Idx) 0).val / 5056, by rw [hN]; omega⟩
    intro a
    match a with
    | ⟨0, _⟩ =>
      show win0_2.index _ 0 * 5056 ≤ ((i : S10112x128.Idx) 0).val ∧ ((i : S10112x128.Idx) 0).val < win0_2.index _ 0 * 5056 + 5056
      rw [e4]; dsimp only; omega
    | ⟨1, _⟩ =>
      show win0_2.index _ 1 * 128 ≤ ((i : S10112x128.Idx) 1).val ∧ ((i : S10112x128.Idx) 1).val < win0_2.index _ 1 * 128 + 128
      rw [e5]; omega

end Cert.KernelIdeal.Region0

end
-- ==== Proof.Region1.lean ====
/-
  The second region's result as ONE function of the arrays it finds.

  The grid has sixteen points; point `t` reads rows 632·t … 632·t + 631 of the dense adjacency (all 10112 columns) and the
  whole projected array, and writes back the same rows of the output. What it writes at row `r`, channel `q` of its block is
  the sum over the node columns `s` of the adjacency at (632·t + r, s) times the projected array at (s, q): entry
  (632·t + r, q) of the function `spmm` below. The sixteen blocks tile the 10112 rows, so after the region the output is
  `spmm` everywhere.
-/
import proofs.«423122_j58557584113800_2_alg».proof.Proof.Gen.KernelIdeal.Frame
import proofs.«423122_j58557584113800_2_alg».proof.Proof.Payloads
import Idealize.ShloMosaic.Lib.Pipeline.Value
import Idealize.ShloMosaic.Lib.Tactic

set_option maxRecDepth 16384

noncomputable section

open scoped BigOperators

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The dense adjacency times the projected array: entry (n, q) is the sum over the node columns `s` of the adjacency
    at (n, s) times the projected array at (s, q). -/
def spmm (A : FVec Ideal S10112x10112 .bf16) (H : FVec Ideal S10112x128 .bf16) : FVec Ideal S10112x128 .f32 :=
  fun j => ∑ s : Fin 10112, A (ix2 (j 0) s) * H (ix2 s (j 1))

/-- The printed index maps over the sixteen points: the adjacency rows' and the result's block index is the point, every
    other block index is zero. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The adjacency block at point `t` is rows 632·t … of the adjacency. -/
theorem adj_apply (c : Dev nD) (t : Fin cfg1.N) (y : S632x10112.Idx) (k : S10112x10112.Idx)
    (hk0 : (k 0).val = t.val * 632 + (y 0).val) (hk1 : (k 1).val = (y 1).val) :
    (iblk1 V c 0 t : Vec Ideal S632x10112 .bf16) y = (V c main_v9 : S10112x10112.Idx → Elt Ideal .bf16) k := by
  obtain ⟨e0, e1, -⟩ := idx1 t
  unfold iblk1
  rw [View.read_apply]
  show V c main_v9 _ = V c main_v9 _
  congr 1
  funext a
  apply Fin.ext
  match a with
  | ⟨0, _⟩ => show win1_0.index t 0 * 632 + 1 * (y 0).val = (k 0).val; rw [e0, hk0]; omega
  | ⟨1, _⟩ => show win1_0.index t 1 * 10112 + 1 * (y 1).val = (k 1).val; rw [e1, hk1]; omega

/-- The projected array's block at every point is the whole projected array. -/
theorem feat_apply (c : Dev nD) (t : Fin cfg1.N) (y : S10112x128.Idx) (k : S10112x128.Idx)
    (hk0 : (k 0).val = (y 0).val) (hk1 : (k 1).val = (y 1).val) :
    (iblk1 V c 1 t : Vec Ideal S10112x128 .bf16) y = (V c main_v1 : S10112x128.Idx → Elt Ideal .bf16) k := by
  obtain ⟨-, -, e2, e3, -⟩ := idx1 t
  unfold iblk1
  rw [View.read_apply]
  show V c main_v1 _ = V c main_v1 _
  congr 1
  funext a
  apply Fin.ext
  match a with
  | ⟨0, _⟩ => show win1_1.index t 0 * 10112 + 1 * (y 0).val = (k 0).val; rw [e2, hk0]; omega
  | ⟨1, _⟩ => show win1_1.index t 1 * 128 + 1 * (y 1).val = (k 1).val; rw [e3, hk1]; omega

/-- What point `t` writes back is block `t` of `spmm` of the arrays as the region finds them. -/
theorem flushed_eq (c : Dev nD) (t : Fin cfg1.N) :
    (dat1 V c).flushed 2 t = ((cfg1.win 2).blk t).view.read (Elt Ideal) (spmm (V c main_v9) (V c main_v1)) := by
  show (cfg1.win 2).cut (grid1.coords t) ((dat1 V c).after 2 t) = _
  rw [after1_2]
  unfold out1_2
  rw [View.canon_unit_zero hz]
  simp only [View.ld_unit_zero (S := S632x10112) hz, View.ld_unit_zero (S := S10112x128) hz]
  obtain ⟨-, -, -, -, e4, e5⟩ := idx1 t
  funext j
  refine (Payloads.spmm_at (iblk1 V c 0 t) (iblk1 V c 1 t) ((cfg1.win 2).xinj (grid1.coords t) j)).trans ?_
  rw [View.read_apply]
  show _ = spmm (V c main_v9) (V c main_v1) (((cfg1.win 2).blk t).view.emb j)
  unfold spmm
  have k0 : ((((cfg1.win 2).blk t).view.emb j) 0).val = t.val * 632 + (j 0).val := by
    show win1_2.index t 0 * 632 + 1 * (j 0).val = _; rw [e4]; omega
  have k1 : ((((cfg1.win 2).blk t).view.emb j) 1).val = (j 1).val := by
    show win1_2.index t 1 * 128 + 1 * (j 1).val = _; rw [e5]; omega
  refine Finset.sum_congr rfl fun s _ => ?_
  rw [adj_apply V c t (ix2 (((cfg1.win 2).xinj (grid1.coords t) j) 0) s) (ix2 ((((cfg1.win 2).blk t).view.emb j) 0) s) k0 rfl,
    feat_apply V c t (ix2 s (((cfg1.win 2).xinj (grid1.coords t) j) 1)) (ix2 s ((((cfg1.win 2).blk t).view.emb j) 1)) rfl k1]

/-- An index of the output is in point `t`'s block iff each coordinate is in the block's range on its axis. -/
theorem mem_blk (t : Fin cfg1.N) (i : S10112x128.Idx) :
    i ∈ ((cfg1.win 2).blk t).view.set ↔ ∀ a : Fin 2, win1_2.index t a * S632x128.size a ≤ (i a).val
      ∧ (i a).val < win1_2.index t a * S632x128.size a + S632x128.size a := by
  show i ∈ ((View.whole main_v10).slice (win1_2.rect t)).set ↔ _
  rw [View.set_slice_whole, Rect.mem_set_unit]
  exact Iff.rfl

/-- After the region the output is `spmm` of the adjacency and the projected array as the region found them: the sixteen
    points' blocks tile the rows. -/
theorem final (c : Dev nD) : (dat1 V c).arrAt 2 cfg1.N = spmm (V c main_v9) (V c main_v1) :=
  (dat1 V c).arrAt_eq_of_cover 2 (spmm (V c main_v9) (V c main_v1)) (fun t _ => flushed_eq V c t) fun i => by
    have hi0 : ((i : S10112x128.Idx) 0).val < 10112 := ((i : S10112x128.Idx) 0).isLt
    have hi1 : ((i : S10112x128.Idx) 1).val < 128 := ((i : S10112x128.Idx) 1).isLt
    have hN : cfg1.N = 16 := N_1
    refine ⟨⟨((i : S10112x128.Idx) 0).val / 632, by rw [hN]; omega⟩, flush1_2 _, ?_⟩
    rw [mem_blk]
    obtain ⟨-, -, -, -, e4, e5⟩ := idx1 ⟨((i : S10112x128.Idx) 0).val / 632, by rw [hN]; omega⟩
    intro a
    match a with
    | ⟨0, _⟩ =>
      show win1_2.index _ 0 * 632 ≤ ((i : S10112x128.Idx) 0).val ∧ ((i : S10112x128.Idx) 0).val < win1_2.index _ 0 * 632 + 632
      rw [e4]; dsimp only; omega
    | ⟨1, _⟩ =>
      show win1_2.index _ 1 * 128 ≤ ((i : S10112x128.Idx) 1).val ∧ ((i : S10112x128.Idx) 1).val < win1_2.index _ 1 * 128 + 128
      rw [e5]; omega

end Cert.KernelIdeal.Region1

end
-- ==== Proof.EdgeSum.lean ====
/-
  The algebra that joins a dense adjacency product with a sum over edges.

  Edges `e` carry a real weight `val e`, a destination `dI e` (any integer) and a source `sN e` among `P` columns. The dense
  adjacency entry at row `d`, column `s` is the sum of the weights of the edges whose flat position `dI e · P + sN e` is
  `d · P + s`; since `0 ≤ sN e < P` that happens exactly when `dI e = d` and `sN e = s`. Multiplying row `d` of the adjacency
  with a real column `hp` and summing over `s` therefore gives the sum over the edges arriving at `d` of `val e · hp (sN e)`:
  the product distributes over the inner sum because every term is a real number.
-/
import Mathlib.Data.EReal.Basic
import Mathlib.Data.EReal.Operations
import Mathlib.Algebra.BigOperators.Fin
import Mathlib.Algebra.BigOperators.Group.Finset.Basic
import Mathlib.Algebra.BigOperators.Ring.Finset
import Mathlib.Tactic.Ring
import Mathlib.Tactic.Linarith

noncomputable section

open scoped BigOperators

namespace Cert.EdgeSum

/-- The coercion of the reals into the extended reals commutes with finite sums. -/
theorem coe_finsum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Uniqueness of Euclidean division: with `0 ≤ a, s < P`, the flat positions `q · P + a` and `d · P + s` agree
exactly when the quotients and the remainders agree. -/
theorem flat_eq_iff {P : ℕ} (q : ℤ) (a s : Fin P) (d : ℕ) :
    q * (P : ℤ) + ((a.val : ℕ) : ℤ) = ((d * P + s.val : ℕ) : ℤ) ↔ (q = (d : ℤ) ∧ a = s) := by
  have ha : ((a.val : ℕ) : ℤ) < (P : ℤ) := by exact_mod_cast a.isLt
  have hs : ((s.val : ℕ) : ℤ) < (P : ℤ) := by exact_mod_cast s.isLt
  have ha0 : (0 : ℤ) ≤ ((a.val : ℕ) : ℤ) := Int.natCast_nonneg _
  have hs0 : (0 : ℤ) ≤ ((s.val : ℕ) : ℤ) := Int.natCast_nonneg _
  constructor
  · intro h
    have h' : q * (P : ℤ) + ((a.val : ℕ) : ℤ) = (d : ℤ) * (P : ℤ) + ((s.val : ℕ) : ℤ) := by
      rw [h]; push_cast; ring
    have hq : q = (d : ℤ) := by
      rcases lt_trichotomy q (d : ℤ) with hlt | heq | hgt
      · exfalso
        have h1 : q + 1 ≤ (d : ℤ) := hlt
        have hP : (0 : ℤ) ≤ (P : ℤ) := Int.natCast_nonneg _
        have h2 : (q + 1) * (P : ℤ) ≤ (d : ℤ) * (P : ℤ) := mul_le_mul_of_nonneg_right h1 hP
        nlinarith
      · exact heq
      · exfalso
        have h1 : (d : ℤ) + 1 ≤ q := hgt
        have hP : (0 : ℤ) ≤ (P : ℤ) := Int.natCast_nonneg _
        have h2 : ((d : ℤ) + 1) * (P : ℤ) ≤ q * (P : ℤ) := mul_le_mul_of_nonneg_right h1 hP
        nlinarith
    refine ⟨hq, ?_⟩
    subst hq
    have : ((a.val : ℕ) : ℤ) = ((s.val : ℕ) : ℤ) := by linarith
    exact Fin.ext (by exact_mod_cast this)
  · rintro ⟨hq, rfl⟩
    rw [hq]; push_cast; ring

/-- A finite sum of products of real entries is a real number. -/
theorem sum_mul_isReal {ι : Type} [Fintype ι] (a b : ι → EReal) (ha : ∀ i, ∃ r : ℝ, a i = (r : EReal))
    (hb : ∀ i, ∃ r : ℝ, b i = (r : EReal)) : ∃ r : ℝ, ∑ i, a i * b i = (r : EReal) := by
  choose ra hra using ha
  choose rb hrb using hb
  refine ⟨∑ i, ra i * rb i, ?_⟩
  rw [coe_finsum]
  refine Finset.sum_congr rfl (fun i _ => ?_)
  rw [hra, hrb, EReal.coe_mul]

/-- Row `d` of the dense adjacency times a real column is the sum over the edges arriving at `d`. -/
theorem dense_eq_edge_sum {E P : ℕ} (val : Fin E → EReal) (hval : ∀ e, ∃ r : ℝ, val e = (r : EReal))
    (hp : Fin P → EReal) (hhp : ∀ s, ∃ r : ℝ, hp s = (r : EReal))
    (fl dI : Fin E → ℤ) (sN : Fin E → Fin P)
    (hfl : ∀ e, fl e = dI e * (P : ℤ) + ((sN e).val : ℤ)) (d : ℕ) :
    ∑ s : Fin P, ((0 : EReal) + ∑ e : Fin E, if fl e = ((d * P + s.val : ℕ) : ℤ) then val e else 0) * hp s
      = (0 : EReal) + ∑ e : Fin E, if dI e = (d : ℤ) then val e * hp (sN e) else 0 := by
  classical
  choose v hv using hval
  choose h hh using hhp
  -- the membership test of an edge in the cell `(d, s)`, in its two forms
  have key : ∀ (e : Fin E) (s : Fin P),
      (fl e = ((d * P + s.val : ℕ) : ℤ)) ↔ (dI e = (d : ℤ) ∧ sN e = s) := by
    intro e s
    rw [hfl e]
    exact flat_eq_iff (dI e) (sN e) s d
  -- each summand of the left side is the coercion of a real sum over the edges
  have hL : ∀ s : Fin P,
      ((0 : EReal) + ∑ e : Fin E, if fl e = ((d * P + s.val : ℕ) : ℤ) then val e else 0) * hp s
        = ((∑ e : Fin E, if fl e = ((d * P + s.val : ℕ) : ℤ) then v e * h s else 0 : ℝ) : EReal) := by
    intro s
    have hterm : ∀ e : Fin E, (if fl e = ((d * P + s.val : ℕ) : ℤ) then val e else (0 : EReal))
        = (((if fl e = ((d * P + s.val : ℕ) : ℤ) then v e else 0 : ℝ)) : EReal) := by
      intro e
      by_cases hc : fl e = ((d * P + s.val : ℕ) : ℤ)
      · rw [if_pos hc, if_pos hc, hv e]
      · rw [if_neg hc, if_neg hc, EReal.coe_zero]
    rw [zero_add, hh s, Finset.sum_congr rfl (fun e _ => hterm e), ← coe_finsum, ← EReal.coe_mul,
      Finset.sum_mul]
    congr 1
    refine Finset.sum_congr rfl (fun e _ => ?_)
    by_cases hc : fl e = ((d * P + s.val : ℕ) : ℤ)
    · rw [if_pos hc, if_pos hc]
    · rw [if_neg hc, if_neg hc, zero_mul]
  -- each summand of the right side is the coercion of a real number
  have hR : ∀ e : Fin E, (if dI e = (d : ℤ) then val e * hp (sN e) else (0 : EReal))
      = (((if dI e = (d : ℤ) then v e * h (sN e) else 0 : ℝ)) : EReal) := by
    intro e
    by_cases hc : dI e = (d : ℤ)
    · rw [if_pos hc, if_pos hc, hv e, hh (sN e), EReal.coe_mul]
    · rw [if_neg hc, if_neg hc, EReal.coe_zero]
  rw [Finset.sum_congr rfl (fun s _ => hL s), zero_add, Finset.sum_congr rfl (fun e _ => hR e),
    ← coe_finsum, ← coe_finsum]
  congr 1
  -- the identity in the reals: exchange the sums; for a fixed edge only the column `sN e` contributes
  rw [Finset.sum_comm]
  refine Finset.sum_congr rfl (fun e _ => ?_)
  by_cases hc : dI e = (d : ℤ)
  · rw [if_pos hc, Finset.sum_eq_single (sN e)]
    · rw [if_pos ((key e (sN e)).mpr ⟨hc, rfl⟩)]
    · intro s _ hne
      rw [if_neg]
      intro hcon
      exact hne ((key e s).mp hcon).2.symm
    · intro hnot
      exact absurd (Finset.mem_univ _) hnot
  · rw [if_neg hc]
    refine Finset.sum_eq_zero (fun s _ => ?_)
    rw [if_neg]
    intro hcon
    exact hc ((key e s).mp hcon).1

end Cert.EdgeSum

end
-- ==== Proof.PreDecode.lean ====
/-
  What the precondition says of the inputs: every entry of the node features, of the weight and of the edge weights
  is a real number, and every edge's source and destination, read as signed integers, is a node number in [0, 10000).
  Two facts about 32-bit words follow from the ranges: the flat position `dst · 10112 + src` is computed without
  wrapping, and the wrap of a negative source index does nothing.
-/
import proofs.«423122_j58557584113800_2_alg».proof.Pre_finite_inputs
import Idealize.ShloMosaic.PureOps.Ideal
import Idealize.ShloMosaic.Lib.ReduceAll
import Idealize.ShloMosaic.Lib.Affine
import Idealize.ShloMosaic.Lib.ValueIdx
import Idealize.ShloMosaic.Lib.StableHlo.Predicate

noncomputable section

namespace Cert.PreDecode

open Idealize.ShloMosaic Idealize.ShloMosaic.ValueIdx

/-- The inputs' domain: real floats, node numbers in range. -/
structure Dom (x : FVec Ideal ⟨2, ![10000, 128]⟩ .f32) (W : FVec Ideal ⟨2, ![128, 128]⟩ .f32)
    (src dst : IVec ⟨1, ![640000]⟩ 32) (val : FVec Ideal ⟨1, ![640000]⟩ .f32) : Prop where
  x_real : ∀ i, ∃ r : ℝ, x i = (r : EReal)
  W_real : ∀ i, ∃ r : ℝ, W i = (r : EReal)
  val_real : ∀ i, ∃ r : ℝ, val i = (r : EReal)
  src_lo : ∀ i, 0 ≤ (src i).toInt
  src_hi : ∀ i, (src i).toInt < 10000
  dst_lo : ∀ i, 0 ≤ (dst i).toInt
  dst_hi : ∀ i, (dst i).toInt < 10000

/-- The scalar shape has one index. -/
instance : Subsingleton (Cert.Pre_finite_inputs.S_).Idx := ⟨fun _ _ => funext fun d => d.elim0⟩

/-- The pattern `0x7F800000` denotes `+∞`. -/
theorem inf_bits : Ideal.ofBits .f32 0x7F800000#32 = ⊤ := by simp [Ideal.ofBits, Ideal.ieee]

/-- An extended real whose absolute value `max v (-v)` compares below `+∞` is neither infinity: it is a real number. -/
theorem real_of_abs_lt_inf (v : Ideal .f32)
    (h : FloatOps.cmpf .olt (FloatOps.hostAbsf v) (FloatOps.ofBits (F := Ideal) .f32 0x7F800000#32) = 1#1) :
    ∃ r : ℝ, v = (r : EReal) := by
  change Ideal.cmp .olt (max (v : EReal) (-(v : EReal))) (Ideal.ofBits .f32 0x7F800000#32) = 1#1 at h
  rw [inf_bits] at h
  unfold Ideal.cmp at h
  have hlt : max (v : EReal) (-(v : EReal)) < ⊤ := by
    by_contra hn
    simp [hn] at h
  rw [max_lt_iff] at hlt
  induction v using EReal.rec with
  | bot => simp at hlt
  | coe r => exact ⟨r, rfl⟩
  | top => simp at hlt

/-- A word that compares signed-at-least the zero word is non-negative as a signed integer. -/
theorem nonneg_of_sge (a : BitVec 32) (h : IntOp.cmpi .sge a 0#32 = 1#1) : 0 ≤ a.toInt := by
  have := IntOp.cmpi_sge.1 h
  rwa [show (0#32 : BitVec 32).toInt = 0 from by decide] at this

/-- A word that compares signed-below the word 10000 is below 10000 as a signed integer. -/
theorem lt_of_slt (a : BitVec 32) (h : IntOp.cmpi .slt a 10000#32 = 1#1) : a.toInt < 10000 := by
  have := IntOp.cmpi_slt.1 h
  rwa [show (10000#32 : BitVec 32).toInt = 10000 from by decide] at this

/-- The printed precondition, all ones, gives the domain. -/
theorem dom_of_pre [Cert.Pre_finite_inputs.Facts] (x : FVec Ideal ⟨2, ![10000, 128]⟩ .f32) (W : FVec Ideal ⟨2, ![128, 128]⟩ .f32)
    (src dst : IVec ⟨1, ![640000]⟩ 32) (val : FVec Ideal ⟨1, ![640000]⟩ .f32)
    (h : Cert.Pre_finite_inputs.fn (F := Ideal) x W src dst val = fun _ => 1#1) : Dom x W src dst val := by
  -- The predicate's one word is a conjunction of seven "all" words; a conjunction of one-bit words is 1 exactly when
  -- each is, and an "all" word is 1 only when every element of its mask is 1.
  have h0 := congrFun h ix0
  dsimp only [Cert.Pre_finite_inputs.fn, Cert.Pre_finite_inputs.fn_part1] at h0
  simp only [andi, IntOp.andi_eq_one] at h0
  obtain ⟨⟨⟨⟨⟨⟨hx, hW⟩, hv⟩, hs0⟩, hs1⟩, hd0⟩, hd1⟩ := h0
  -- Each mask element compares the input's element with a scalar broadcast: `|v| < +∞`, `0 ≤ v` or `v < 10000`.
  refine ⟨fun i => ?_, fun i => ?_, fun i => ?_, fun i => ?_, fun i => ?_, fun i => ?_, fun i => ?_⟩
  · have e := Host.reduce_andi_all _ _ _ _ _ hx i
    simp only [cmpf, Host.absf, constant, StableHlo.Predicate.bcast_scalar _ Cert.Pre_finite_inputs.Facts.h_S_] at e
    exact real_of_abs_lt_inf _ e
  · have e := Host.reduce_andi_all _ _ _ _ _ hW i
    simp only [cmpf, Host.absf, constant, StableHlo.Predicate.bcast_scalar _ Cert.Pre_finite_inputs.Facts.h_S_] at e
    exact real_of_abs_lt_inf _ e
  · have e := Host.reduce_andi_all _ _ _ _ _ hv i
    simp only [cmpf, Host.absf, constant, StableHlo.Predicate.bcast_scalar _ Cert.Pre_finite_inputs.Facts.h_S_] at e
    exact real_of_abs_lt_inf _ e
  · have e := Host.reduce_andi_all _ _ _ _ _ hs0 i
    simp only [cmpi, constantI, StableHlo.Predicate.bcast_scalar _ Cert.Pre_finite_inputs.Facts.h_S_] at e
    exact nonneg_of_sge _ e
  · have e := Host.reduce_andi_all _ _ _ _ _ hs1 i
    simp only [cmpi, constantI, StableHlo.Predicate.bcast_scalar _ Cert.Pre_finite_inputs.Facts.h_S_] at e
    exact lt_of_slt _ e
  · have e := Host.reduce_andi_all _ _ _ _ _ hd0 i
    simp only [cmpi, constantI, StableHlo.Predicate.bcast_scalar _ Cert.Pre_finite_inputs.Facts.h_S_] at e
    exact nonneg_of_sge _ e
  · have e := Host.reduce_andi_all _ _ _ _ _ hd1 i
    simp only [cmpi, constantI, StableHlo.Predicate.bcast_scalar _ Cert.Pre_finite_inputs.Facts.h_S_] at e
    exact lt_of_slt _ e

/-- With both words node numbers, the flat position is computed without wrapping. -/
theorem flat_toInt (a b : BitVec 32) (ha0 : 0 ≤ a.toInt) (ha1 : a.toInt < 10000) (hb0 : 0 ≤ b.toInt) (hb1 : b.toInt < 10000) :
    (IntOp.addi (IntOp.muli a 10112#32) b).toInt = a.toInt * 10112 + b.toInt := by
  -- The product is below 10000 · 10112 and the sum below that plus 10000, both under 2³¹: the balanced remainders are the values.
  show (a * 10112#32 + b).toInt = a.toInt * 10112 + b.toInt
  rw [BitVec.toInt_add, BitVec.toInt_mul, show (10112#32 : BitVec 32).toInt = 10112 from by decide]
  have h1 : (a.toInt * 10112).bmod (2 ^ 32) = a.toInt * 10112 := by
    apply Int.bmod_eq_of_le <;> omega
  rw [h1]
  apply Int.bmod_eq_of_le <;> omega

/-- A non-negative index is not wrapped. -/
theorem wrap_id (b : BitVec 32) (hb0 : 0 ≤ b.toInt) :
    Scalar.select (IntOp.cmpi .slt b 0#32) (IntOp.addi b 10000#32) b = b := by
  have hn : IntOp.cmpi .slt b 0#32 ≠ 1#1 := by
    intro hc
    have := IntOp.cmpi_slt.1 hc
    rw [show (0#32 : BitVec 32).toInt = 0 from by decide] at this
    omega
  unfold Scalar.select
  exact if_neg hn

end Cert.PreDecode

end
-- ==== Proof.Spec.lean ====
/-
  The two programs' results as functions of the inputs, entry by entry, and the equation between them.

  Kernel side. The dense adjacency over the 10112 padded nodes has, at row `n` and column `s`, the sum of the weights of the
  edges whose flat position `dst · 10112 + src` (computed in 32-bit words) is `n · 10112 + s`. The padded node array is the
  node array on its first 10000 rows and zero below; `featP` projects it by the weight. The result at destination `d` and
  channel `o` is the adjacency's row `d` times column `o` of `featP`.

  Reference side. Each edge gathers the projected row of its source (a negative source wrapped by the number of nodes,
  then clamped into the rows), scales it by its weight, and the scaled rows are added up at the edge's destination.

  With every float a real number and every source and destination a node number in [0, 10000) the two agree: the flat
  position does not wrap and determines the pair (destination, source); the source is a row of the node array proper,
  so padding is never read; and a real column distributes over the sum of real weights.
-/
import proofs.«423122_j58557584113800_2_alg».proof.Proof.EdgeSum
import proofs.«423122_j58557584113800_2_alg».proof.Proof.PreDecode
import Idealize.ShloMosaic.PureOps.Ideal
import Idealize.ShloMosaic.Lib.ValueIdx

noncomputable section

open scoped BigOperators

namespace Cert.Spec

open Idealize.ShloMosaic Idealize.ShloMosaic.ValueIdx

variable (x : FVec Ideal ⟨2, ![10000, 128]⟩ .f32) (W : FVec Ideal ⟨2, ![128, 128]⟩ .f32)
  (src dst : IVec ⟨1, ![640000]⟩ 32) (val : FVec Ideal ⟨1, ![640000]⟩ .f32)

/-- An edge's flat position in the dense adjacency, as the 32-bit word the program computes. -/
def flatIdx (e : Fin 640000) : BitVec 32 := IntOp.addi (IntOp.muli (dst (ix1 e)) 10112#32) (src (ix1 e))

/-- The dense adjacency at row `n`, column `s`. -/
def adj (n s : Fin 10112) : EReal :=
  0 + ∑ e : Fin 640000, if (flatIdx src dst e).toInt = ((n.val * 10112 + s.val : ℕ) : ℤ) then val (ix1 e) else 0

/-- The node array padded with zero rows to 10112 rows. -/
def xpad (s : Fin 10112) (i : Fin 128) : EReal := if h : s.val < 10000 then x (ix2 ⟨s.val, h⟩ i) else 0

/-- The padded node array projected by the weight. -/
def featP (s : Fin 10112) (o : Fin 128) : EReal := ∑ i : Fin 128, xpad x s i * W (ix2 o i)

/-- The kernel's result at destination `d`, channel `o`. -/
def kernelOut (d : Fin 10000) (o : Fin 128) : EReal :=
  ∑ s : Fin 10112, adj src dst val ⟨d.val, by have := d.isLt; omega⟩ s * featP x W s o

/-- The node array projected by the weight. -/
def featR (n : Fin 10000) (o : Fin 128) : EReal := ∑ k : Fin 128, x (ix2 n k) * W (ix2 o k)

/-- A negative index wrapped by the number of nodes. -/
def wrapIdx (b : BitVec 32) : BitVec 32 := Scalar.select (IntOp.cmpi .slt b 0#32) (IntOp.addi b 10000#32) b

/-- The row a gather reads for the start index `b`: read signed, clamped into the 10000 rows. -/
def clampRow (b : BitVec 32) : Fin 10000 := ⟨min b.toInt.toNat (10000 - 1), by omega⟩

/-- The reference's result at destination `d`, channel `o`. -/
def refOut (d : Fin 10000) (o : Fin 128) : EReal :=
  0 + ∑ e : Fin 640000, if (dst (ix1 e)).toInt = (d.val : ℤ)
    then val (ix1 e) * featR x W (clampRow (wrapIdx (src (ix1 e)))) o else 0

/-- On the inputs' domain the kernel's result is the reference's. -/
theorem kernelOut_eq_refOut (hdom : Cert.PreDecode.Dom x W src dst val) (d : Fin 10000) (o : Fin 128) :
    kernelOut x W src dst val d o = refOut x W src dst val d o := by
  -- an edge's source is a column of the padded adjacency, since it is a node number
  have hsrc : ∀ e : Fin 640000, (src (ix1 e)).toInt.toNat < 10112 := by
    intro e
    have h0 := hdom.src_lo (ix1 e)
    have h1 := hdom.src_hi (ix1 e)
    omega
  -- every entry of the padded node array is real: a node entry on the first 10000 rows, zero below
  have hxpad : ∀ (s : Fin 10112) (i : Fin 128), ∃ r : ℝ, xpad x s i = (r : EReal) := by
    intro s i
    unfold xpad
    by_cases h : s.val < 10000
    · rw [dif_pos h]; exact hdom.x_real _
    · rw [dif_neg h]; exact ⟨0, EReal.coe_zero.symm⟩
  -- hence every projected entry is real
  have hfeat : ∀ s : Fin 10112, ∃ r : ℝ, featP x W s o = (r : EReal) := by
    intro s
    unfold featP
    exact Cert.EdgeSum.sum_mul_isReal _ _ (fun i => hxpad s i) (fun i => hdom.W_real _)
  -- the flat position does not wrap: it is destination times 10112 plus source
  have hfl : ∀ e : Fin 640000, (flatIdx src dst e).toInt
      = (dst (ix1 e)).toInt * ((10112 : ℕ) : ℤ)
        + (((⟨(src (ix1 e)).toInt.toNat, hsrc e⟩ : Fin 10112).val : ℕ) : ℤ) := by
    intro e
    unfold flatIdx
    rw [Cert.PreDecode.flat_toInt _ _ (hdom.dst_lo _) (hdom.dst_hi _) (hdom.src_lo _) (hdom.src_hi _)]
    show _ = _ * ((10112 : ℕ) : ℤ) + (((src (ix1 e)).toInt.toNat : ℕ) : ℤ)
    rw [Int.toNat_of_nonneg (hdom.src_lo _)]
    norm_num
  -- the source is a row of the node array proper: the wrap and the clamp do nothing, and padding is not read
  have hrow : ∀ e : Fin 640000, featP x W ⟨(src (ix1 e)).toInt.toNat, hsrc e⟩ o
      = featR x W (clampRow (wrapIdx (src (ix1 e)))) o := by
    intro e
    have h0 := hdom.src_lo (ix1 e)
    have h1 := hdom.src_hi (ix1 e)
    have hlt : (src (ix1 e)).toInt.toNat < 10000 := by omega
    have hclamp : clampRow (wrapIdx (src (ix1 e))) = ⟨(src (ix1 e)).toInt.toNat, hlt⟩ := by
      unfold wrapIdx
      rw [Cert.PreDecode.wrap_id _ h0]
      apply Fin.ext
      show min (src (ix1 e)).toInt.toNat (10000 - 1) = (src (ix1 e)).toInt.toNat
      omega
    rw [hclamp]
    unfold featP featR
    refine Finset.sum_congr rfl (fun i _ => ?_)
    unfold xpad
    rw [dif_pos hlt]
  have hmain := Cert.EdgeSum.dense_eq_edge_sum (E := 640000) (P := 10112) (fun e => val (ix1 e))
    (fun e => hdom.val_real _) (fun s => featP x W s o) hfeat (fun e => (flatIdx src dst e).toInt)
    (fun e => (dst (ix1 e)).toInt) (fun e => ⟨(src (ix1 e)).toInt.toNat, hsrc e⟩) hfl d.val
  unfold kernelOut adj
  refine hmain.trans ?_
  unfold refOut
  refine congrArg (fun t : EReal => (0 : EReal) + t) ?_
  refine Finset.sum_congr rfl (fun e _ => ?_)
  rw [hrow e]

end Cert.Spec

end
-- ==== Proof.LibScatterFlat.lean ====
/-
  The host's accumulating scatter of SCALARS into a flat array, read over the extended reals.

  The scatter indices are a column of positions, one per update; update `e` is added to the operand's entry at the
  position `idx e` (read as a signed integer; a position outside the operand drops the update). Entry `n` of the
  result is therefore entry `n` of the operand plus the sum of the updates whose position is `n`.
-/
import Idealize.ShloMosaic.PureOps.Ideal.Laws
import Idealize.ShloMosaic.Lib.ValueIdx
import Idealize.ShloMosaic.Lib.ValueIdxRank1

noncomputable section

open scoped BigOperators

namespace Cert.LibScatterFlat

open Idealize.ShloMosaic Idealize.ShloMosaic.ValueIdx

section Coordinates

variable {N E : Nat}

/-- The dimension numbers of a scatter of scalars into a flat array: the updates have no window axis, the operand's
    one axis is inserted and is the one the scatter indices address, and each scatter index is one scalar. -/
abbrev flatDims (hwf : ScatterDims.WF ⟨1, ![N]⟩ ⟨2, ![E, 1]⟩ ⟨1, ![E]⟩ [] [0] [0] 1) :
    ScatterDims ⟨1, ![N]⟩ ⟨2, ![E, 1]⟩ ⟨1, ![E]⟩ :=
  { updateWindowDims := [], insertedWindowDims := [0], scatterDimsToOperandDims := [0], indexVectorDim := 1, wf := hwf }

/-- The operand's one axis is inserted: it has no window coordinate. -/
theorem flatDims_window0 (hwf) (j : (⟨1, ![E]⟩ : Shape).Idx) : (flatDims (N := N) hwf).window j 0 = 0 := by
  rfl

/-- On the operand's one axis the window starts at the scatter index of the update, read as a signed integer. -/
theorem flatDims_start0 {w : Nat} (hwf) (j : (⟨1, ![E]⟩ : Shape).Idx) (idx : IVec ⟨2, ![E, 1]⟩ w) :
    (flatDims (N := N) hwf).start j idx 0 = (idx (ix2 (j 0) 0)).toInt := by
  have hs : (flatDims (N := N) hwf).siIdx j ⟨0, Nat.one_pos⟩ = ix2 (j 0) 0 := by
    funext b; apply Fin.ext
    match b with
    | ⟨0, _⟩ => rfl
    | ⟨1, _⟩ => rfl
  exact congrArg (fun k => (idx k).toInt) hs

/-- Where an update lands, from the two coordinate facts: update `j` lands on entry `n` of the operand exactly when
    its scatter index is `n`. -/
theorem flat_resultIdx_iff_of_coords {w : Nat} (d : ScatterDims ⟨1, ![N]⟩ ⟨2, ![E, 1]⟩ ⟨1, ![E]⟩)
    (j : (⟨1, ![E]⟩ : Shape).Idx) (idx : IVec ⟨2, ![E, 1]⟩ w)
    (s0 : d.start j idx 0 = (idx (ix2 (j 0) 0)).toInt) (w0 : d.window j 0 = 0) (n : Fin N) :
    d.resultIdx? j idx = some (ix1 n) ↔ (idx (ix2 (j 0) 0)).toInt = (n.val : ℤ) := by
  have hn := n.isLt
  unfold ScatterDims.resultIdx?
  split
  next h =>
    rw [Option.some.injEq]
    constructor
    · intro hf
      have e0 : (d.start j idx 0 + (d.window j 0 : ℕ)).toNat = n.val := congrArg Fin.val (congrFun hf 0)
      have h0 : 0 ≤ d.start j idx 0 + (d.window j 0 : ℕ) ∧ d.start j idx 0 + (d.window j 0 : ℕ) < (N : ℤ) := h 0
      rw [s0, w0] at e0 h0
      omega
    · intro en
      funext a; apply Fin.ext
      match a with
      | ⟨0, _⟩ =>
        show (d.start j idx 0 + (d.window j 0 : ℕ)).toNat = n.val
        rw [s0, w0, en]; omega
  next h =>
    constructor
    · intro hf; exact absurd hf (by simp)
    · intro en
      exfalso; apply h
      intro a
      match a with
      | ⟨0, _⟩ =>
        show 0 ≤ d.start j idx 0 + (d.window j 0 : ℕ) ∧ d.start j idx 0 + (d.window j 0 : ℕ) < (N : ℤ)
        rw [s0, w0, en]; omega

end Coordinates

section FlatScatter

variable {N E : Nat}

/-- The flat scatter at the concrete dimension numbers, read at entry `n`: the operand's entry plus the sum of the
    updates whose scatter index is `n`. -/
theorem scatterAdd_flatDims_apply {w : Nat} (hwf) (x : FVec Ideal ⟨1, ![N]⟩ .f32) (idx : IVec ⟨2, ![E, 1]⟩ w)
    (upd : FVec Ideal ⟨1, ![E]⟩ .f32) (n : Fin N) :
    Host.scatterAdd (flatDims (N := N) hwf) x idx upd (ix1 n)
      = x (ix1 n) + ∑ e : Fin E, if (idx (ix2 e 0)).toInt = (n.val : ℤ) then upd (ix1 e) else 0 := by
  have key : ∀ e : Fin E, (flatDims (N := N) hwf).resultIdx? (ix1 e) idx = some (ix1 n) ↔
      (idx (ix2 e 0)).toInt = (n.val : ℤ) := fun e =>
    flat_resultIdx_iff_of_coords (flatDims (N := N) hwf) (ix1 e) idx (flatDims_start0 hwf _ idx) (flatDims_window0 hwf _) n
  show x (ix1 n) + ∑ j ∈ Finset.univ.filter (fun j => (flatDims (N := N) hwf).resultIdx? j idx = some (ix1 n)), upd j = _
  refine congrArg (fun t => x (ix1 n) + t) ?_
  -- the sum over the updates' indices is the sum over their one coordinate
  rw [Finset.sum_filter, ← Equiv.sum_comp (idxEquiv1 (n := E)).symm]
  refine Finset.sum_congr rfl fun e _ => ?_
  show (if (flatDims (N := N) hwf).resultIdx? (ix1 e) idx = some (ix1 n) then upd (ix1 e) else 0) = _
  exact if_congr (key e) rfl rfl

end FlatScatter

/-- The flat scatter read at entry `n`, for any dimension numbers whose four lists are those of a scatter of scalars
    into a rank-1 operand: the operand's entry plus the sum of the updates `e` whose scatter index (read as a signed
    integer) is `n`. An update whose index is no position of the operand contributes to no entry. -/
theorem scatterAdd_flat_apply {N E w : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : FVec Ideal ⟨1, ![N]⟩ .f32) (idx : IVec ⟨2, ![E, 1]⟩ w) (upd : FVec Ideal ⟨1, ![E]⟩ .f32) (n : Fin N) :
    Host.scatterAdd d x idx upd (ix1 n)
      = x (ix1 n) + ∑ e : Fin E, if (idx (ix2 e 0)).toInt = (n.val : ℤ) then upd (ix1 e) else 0 := by
  cases d with
  | mk uw iw sd iv wf =>
    dsimp only at h1 h2 h3 h4
    subst h1 h2 h3 h4
    exact scatterAdd_flatDims_apply wf x idx upd n

end Cert.LibScatterFlat

end
-- ==== Proof.KernelValue.lean ====
/-
  The kernel's result buffer, read at an entry, is the specification's `kernelOut` of the inputs.

  The run's last boundary holds, at the result, the first 10000 rows of the second region's output; that output is the
  dense adjacency times the projected array (both regions read as whole-array functions); the adjacency the region finds
  is the reshaped flat scatter of the edge weights at the flat positions `dst · 10112 + src`, read at row `n`, column `s`
  at flat position `n · 10112 + s`; the projected array the second region finds is the first region's output, which is
  the padded node array times the weight; and the padded node array is the node array on its rows, zero below.
-/
import proofs.«423122_j58557584113800_2_alg».proof.Proof.Gen.KernelIdeal.Frame
import proofs.«423122_j58557584113800_2_alg».proof.Proof.Region0
import proofs.«423122_j58557584113800_2_alg».proof.Proof.Region1
import proofs.«423122_j58557584113800_2_alg».proof.Proof.Spec
import proofs.«423122_j58557584113800_2_alg».proof.Proof.LibScatterFlat
import Idealize.ShloMosaic.Lib.StableHlo.Run
import Idealize.ShloMosaic.Lib.Pipeline.Value
import Idealize.ShloMosaic.Lib.KernelVsHost
import Idealize.ShloMosaic.PureOps.Ideal.Laws

set_option maxRecDepth 16384

noncomputable section

open scoped BigOperators

open Idealize.ShloMosaic Idealize.ShloMosaic.TcCoe Idealize.SL.Sem Idealize.ShloMosaic.ValueIdx Idealize.ShloMosaic.StableHlo

namespace Cert.KernelIdeal.KValue

open Cert.KernelIdeal Cert.KernelIdeal.Gen

variable (m : (ℓ : Loc nD τ sig) → Buf (Elt Ideal) ℓ) (ρ : Dev nD → PrngReg)

/-- A stretch of host operations leaves a buffer none of them writes as it was. -/
macro "untouched " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The inputs at the boundaries -/

theorem W2_arg1 (c : Dev nD) : W2 m ρ c (Proc.devRef .tc main_arg1) = m ((c : Thread nD τ).loc main_arg1) :=
  calc W2 m ρ c (Proc.devRef .tc main_arg1)
    _ = W1 m ρ c (Proc.devRef .tc main_arg1) := by untouched hostOps0_1
    _ = W0 m ρ c (Proc.devRef .tc main_arg1) := by untouched hostOps0
    _ = m ((c : Thread nD τ).loc main_arg1) := rfl

theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := by untouched hostOps0_1
    _ = W0 m ρ c (Proc.devRef .tc main_arg2) := by untouched hostOps0
    _ = m ((c : Thread nD τ).loc main_arg2) := rfl

theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := by untouched hostOps0_1
    _ = W0 m ρ c (Proc.devRef .tc main_arg3) := by untouched hostOps0
    _ = m ((c : Thread nD τ).loc main_arg3) := rfl

theorem W3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := by untouched hostOps0_1
    _ = W0 m ρ c (Proc.devRef .tc main_arg4) := by untouched hostOps0
    _ = m ((c : Thread nD τ).loc main_arg4) := rfl

/-! ## The host stretches -/

/-- The first region finds the node array padded with 112 rows of the converted integer zero. -/
theorem V2_v0 (c : Dev nD) : V2 m ρ c main_v0
    = pad S10112x128 ![0, 0] ![112, 0] ![0, 0] (m ((c : Thread nD τ).loc main_arg0))
        (sitofp (F := Ideal) .f32 (constantI S_ 32 0#32)) pads_S10000x128_S10112x128_01120_000 h_S_ := by
  show StableHlo.after hostOps0_1 (StableHlo.after hostOps0 (W0 m ρ c)) (Proc.devRef .tc main_v0) = _
  after_results
  rfl

/-- … and the weight as launched. -/
theorem V2_arg1 (c : Dev nD) : V2 m ρ c main_arg1 = m ((c : Thread nD τ).loc main_arg1) := W2_arg1 m ρ c

/-- The second region finds, as the projected array, the first region's output. -/
theorem V4_v1 (c : Dev nD) : V4 m ρ c main_v1 = Region0.proj (V2 m ρ c main_v0) (V2 m ρ c main_arg1) := by
  show StableHlo.after hostOps1 (W3 m ρ c) (Proc.devRef .tc main_v1) = _
  after_results
  exact (W3_arr m ρ c 2).trans (Region0.final (V2 m ρ) c)

/-- … and, as the adjacency, the reshaped flat scatter of the edge weights. -/
theorem V4_v9 (c : Dev nD) : V4 m ρ c main_v9
    = truncf .bf16 (shapeCast S10112x10112
        (Host.scatterAdd (F := Ideal) scatter_S102252544_S640000x1_S640000_n_0_0_1
          (broadcastInDim S102252544 ![] bcast_S_S102252544 (constant S_ .f32 0x00000000#32))
          (broadcastInDim S640000x1 ![0] bcast_S640000_S640000x1_0
            (addi (muli (m ((c : Thread nD τ).loc main_arg3)) (broadcastInDim S640000 ![] bcast_S_S640000 (constantI S_ 32 10112#32)))
              (m ((c : Thread nD τ).loc main_arg2))))
          (m ((c : Thread nD τ).loc main_arg4)))
        shapeCasts_S102252544_S10112x10112) bitsLt_bf16_f32 := by
  show StableHlo.after hostOps1 (W3 m ρ c) (Proc.devRef .tc main_v9) = _
  after_results
  rw [W3_arg2, W3_arg3, W3_arg4]
  rfl

/-- The result buffer at the last boundary: the first 10000 rows of the second region's output. -/
theorem W6_v11 (c : Dev nD) : W6 m ρ c (Proc.devRef .tc main_v11)
    = extractStridedSlice S10000x128 ![0, 0] (Region1.spmm (V4 m ρ c main_v9) (V4 m ρ c main_v1)) slices_S10112x128_S10000x128_0_0 := by
  show StableHlo.after hostOps2 (W5 m ρ c) (Proc.devRef .tc main_v11) = _
  after_results
  exact congrArg (fun X => extractStridedSlice S10000x128 ![0, 0] X slices_S10112x128_S10000x128_0_0)
    ((W5_arr m ρ c 2).trans (Region1.final (V4 m ρ) c))

/-! ## The result at an entry -/

/-- The arrays the regions find and the result, each at its literal type. -/
abbrev xpArr (c : Dev nD) : FVec Ideal S10112x128 .f32 := V2 m ρ c main_v0
abbrev wArr (c : Dev nD) : FVec Ideal S128x128 .f32 := V2 m ρ c main_arg1
abbrev adjArr (c : Dev nD) : FVec Ideal S10112x10112 .bf16 := V4 m ρ c main_v9
abbrev projArr (c : Dev nD) : FVec Ideal S10112x128 .bf16 := V4 m ρ c main_v1
abbrev outArr (c : Dev nD) : FVec Ideal S10000x128 .f32 := W6 m ρ c (Proc.devRef .tc main_v11)
abbrev argX (c : Dev nD) : FVec Ideal S10000x128 .f32 := m ((c : Thread nD τ).loc main_arg0)
abbrev argW (c : Dev nD) : FVec Ideal S128x128 .f32 := m ((c : Thread nD τ).loc main_arg1)
abbrev argSrc (c : Dev nD) : IVec S640000 32 := m ((c : Thread nD τ).loc main_arg2)
abbrev argDst (c : Dev nD) : IVec S640000 32 := m ((c : Thread nD τ).loc main_arg3)
abbrev argVal (c : Dev nD) : FVec Ideal S640000 .f32 := m ((c : Thread nD τ).loc main_arg4)

theorem xpArr_eq (c : Dev nD) : xpArr m ρ c
    = pad S10112x128 ![0, 0] ![112, 0] ![0, 0] (argX m c) (sitofp (F := Ideal) .f32 (constantI S_ 32 0#32))
        pads_S10000x128_S10112x128_01120_000 h_S_ := V2_v0 m ρ c
theorem wArr_eq (c : Dev nD) : wArr m ρ c = argW m c := V2_arg1 m ρ c
theorem projArr_eq (c : Dev nD) : projArr m ρ c = Region0.proj (xpArr m ρ c) (wArr m ρ c) := V4_v1 m ρ c
theorem adjArr_eq (c : Dev nD) : adjArr m ρ c
    = truncf .bf16 (shapeCast S10112x10112
        (Host.scatterAdd (F := Ideal) scatter_S102252544_S640000x1_S640000_n_0_0_1
          (broadcastInDim S102252544 ![] bcast_S_S102252544 (constant S_ .f32 0x00000000#32))
          (broadcastInDim S640000x1 ![0] bcast_S640000_S640000x1_0
            (addi (muli (argDst m c) (broadcastInDim S640000 ![] bcast_S_S640000 (constantI S_ 32 10112#32))) (argSrc m c)))
          (argVal m c))
        shapeCasts_S102252544_S10112x10112) bitsLt_bf16_f32 := V4_v9 m ρ c
theorem outArr_eq (c : Dev nD) : outArr m ρ c
    = extractStridedSlice S10000x128 ![0, 0] (Region1.spmm (adjArr m ρ c) (projArr m ρ c)) slices_S10112x128_S10000x128_0_0 :=
  W6_v11 m ρ c

/-- The padded node array at row `s`, channel `i`: the node array on its own rows, zero below. -/
theorem xpad_apply (c : Dev nD) (s : Fin 10112) (i : Fin 128) :
    xpArr m ρ c (ix2 s i) = Spec.xpad (argX m c) s i := by
  rw [xpArr_eq]
  unfold Spec.xpad
  split
  · rename_i h
    exact pad_apply_of_inside (s := S10000x128) (t := S10112x128) ![0, 0] ![112, 0] ![0, 0] _ _ pads_S10000x128_S10112x128_01120_000 h_S_ (ix2 s i)
      (ix2 ⟨s.val, h⟩ i) (fun a => by
        match a with
        | ⟨0, _⟩ => show s.val = 0 + s.val * (0 + 1); omega
        | ⟨1, _⟩ => show i.val = 0 + i.val * (0 + 1); omega)
  · rename_i h
    refine (pad_apply_of_not_inside (s := S10000x128) (t := S10112x128) ![0, 0] ![112, 0] ![0, 0] _ _ pads_S10000x128_S10112x128_01120_000 h_S_ (ix2 s i)
      (0 : Fin 2) (fun hh => h ?_)).trans ?_
    · have h3 : (s.val - 0) / (0 + 1) < 10000 := hh.2.2
      omega
    · exact sitofp_zero (φ := .f32)

/-- The projected array the second region finds, at row `s`, channel `o`. -/
theorem featP_apply (c : Dev nD) (s : Fin 10112) (o : Fin 128) :
    projArr m ρ c (ix2 s o) = Spec.featP (argX m c) (argW m c) s o := by
  rw [projArr_eq]
  unfold Region0.proj Spec.featP
  show (∑ i : Fin 128, xpArr m ρ c (ix2 s i) * wArr m ρ c (ix2 o i)) = _
  refine Finset.sum_congr rfl fun i _ => ?_
  rw [xpad_apply, wArr_eq]

/-- The adjacency the second region finds, at row `n`, column `s`: the flat scatter at position n · 10112 + s. -/
theorem adj_apply (c : Dev nD) (n s : Fin 10112) :
    adjArr m ρ c (ix2 n s) = Spec.adj (argSrc m c) (argDst m c) (argVal m c) n s := by
  rw [adjArr_eq]
  have hn := n.isLt
  have hs := s.isLt
  have hlt : n.val * 10112 + s.val < 102252544 := by omega
  refine (truncf_apply _ bitsLt_bf16_f32 (ix2 n s)).trans ?_
  refine (shapeCast_apply _ shapeCasts_S102252544_S10112x10112 (ix2 n s) (ix1 ⟨n.val * 10112 + s.val, hlt⟩) ?_).trans ?_
  · rw [Shape.rowMajor_val_one, Shape.rowMajor_val_two]
    show n.val * 10112 + s.val = n.val * 10112 + s.val
    rfl
  refine (Cert.LibScatterFlat.scatterAdd_flat_apply scatter_S102252544_S640000x1_S640000_n_0_0_1 rfl rfl rfl rfl _ _ _
    ⟨n.val * 10112 + s.val, hlt⟩).trans ?_
  unfold Spec.adj
  refine congrArg₂ (fun a b : EReal => a + b) ?_ ?_
  · refine (broadcastInDim_apply _ bcast_S_S102252544 _ _ (fun a => a.elim0) (fun a => a.elim0)).trans ?_
    exact Ideal.ofBits_zero_f32
  · refine Finset.sum_congr rfl fun e _ => ?_
    have hidx : broadcastInDim S640000x1 ![0] bcast_S640000_S640000x1_0
        (addi (muli (argDst m c) (broadcastInDim S640000 ![] bcast_S_S640000 (constantI S_ 32 10112#32))) (argSrc m c)) (ix2 e 0)
        = Spec.flatIdx (argSrc m c) (argDst m c) e := by
      refine (broadcastInDim_apply _ bcast_S640000_S640000x1_0 _ (ix2 e 0) (ix1 e) (fun a => by
        match a with
        | ⟨0, _⟩ => show e.val = if (640000 : Nat) = 1 then 0 else e.val; rw [if_neg (by decide)])).trans ?_
      unfold Spec.flatIdx
      show IntOp.addi (IntOp.muli (argDst m c (ix1 e))
        (broadcastInDim S640000 ![] bcast_S_S640000 (constantI S_ 32 10112#32) (ix1 e))) (argSrc m c (ix1 e)) = _
      rw [broadcastInDim_apply _ bcast_S_S640000 (constantI S_ 32 10112#32) (ix1 e) (fun a => a.elim0) (fun a => a.elim0)]
      rfl
    rw [hidx]

/-- THE RESULT at destination `d`, channel `o`: the specification's `kernelOut` of the inputs. -/
theorem result_apply (c : Dev nD) (d : Fin 10000) (o : Fin 128) :
    outArr m ρ c (ix2 d o) = Spec.kernelOut (argX m c) (argW m c) (argSrc m c) (argDst m c) (argVal m c) d o := by
  rw [outArr_eq]
  have hd : d.val < 10112 := by have := d.isLt; omega
  refine (extractStridedSlice_apply (s := S10112x128) (t := S10000x128) ![0, 0] _ slices_S10112x128_S10000x128_0_0 (ix2 d o) (ix2 ⟨d.val, hd⟩ o) (fun a => by
    match a with
    | ⟨0, _⟩ => show d.val = 0 + d.val; omega
    | ⟨1, _⟩ => show o.val = 0 + o.val; omega)).trans ?_
  unfold Region1.spmm Spec.kernelOut
  show (∑ s : Fin 10112, adjArr m ρ c (ix2 ⟨d.val, hd⟩ s) * projArr m ρ c (ix2 s o)) = _
  refine Finset.sum_congr rfl fun s _ => ?_
  rw [adj_apply, featP_apply]

end Cert.KernelIdeal.KValue

end
-- ==== Proof.LibGatherRows.lean ====
/-
  The host's gather of ROWS, read at an entry.

  The start indices are a column of row numbers, one per result row; result row `e` is the operand's row whose number
  is the start index of `e`, read as a signed integer and clamped into the operand's rows (a negative number reads
  row 0, a number past the last row reads the last row). Every column is read by itself.
-/
import Idealize.ShloMosaic.PureOps.Ideal.Laws
import Idealize.ShloMosaic.Lib.ValueIdx

noncomputable section

namespace Cert.LibGatherRows

open Idealize.ShloMosaic Idealize.ShloMosaic.ValueIdx

section RowGather

variable {α : Type} {N E C : Nat}

/-- The dimension numbers of a row gather: the operand's first axis is collapsed and is the one the start indices
    address, its second axis is kept whole and is the result's second axis, and each start index is one scalar. -/
abbrev gatherRowDims (hwf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := hwf

/-- The start-indices index at which result entry (e, c) reads its start index is (e, 0). -/
theorem gatherRowDims_siIdx (hwf) (e : Fin E) (c : Fin C) (h : List.idxOf (0 : Fin 2) (gatherRowDims (N := N) hwf).startIndexMap <
      (gatherRowDims (N := N) hwf).startIndexMap.length) :
    (gatherRowDims (N := N) hwf).siIdx (ix2 e c) ⟨List.idxOf (0 : Fin 2) (gatherRowDims (N := N) hwf).startIndexMap, h⟩ = ix2 e 0 := by
  funext b; refine Fin.ext ?_
  match b with
  | ⟨0, _⟩ => rfl
  | ⟨1, _⟩ => rfl

/-- On the row axis the slice starts at the start index of the result's row, read signed and clamped into the
    operand's rows: the slice is one row tall, so the clamp's upper bound is the last row. -/
theorem gatherRowDims_start0 {w : Nat} (hwf) (idx : IVec ⟨2, ![E, 1]⟩ w) (e : Fin E) (c : Fin C) :
    (gatherRowDims (N := N) hwf).start (ix2 e c) idx 0 = min (idx (ix2 e 0)).toInt.toNat (N - 1) := by
  unfold GatherDims.start
  rw [dif_pos (show (0 : Fin 2) ∈ (gatherRowDims (N := N) hwf).startIndexMap from List.mem_singleton.mpr rfl)]
  rw [gatherRowDims_siIdx]
  rfl

/-- On the column axis the slice starts at zero: the start indices do not address it. -/
theorem gatherRowDims_start1 {w : Nat} (hwf) (idx : IVec ⟨2, ![E, 1]⟩ w) (j : (⟨2, ![E, C]⟩ : Shape).Idx) :
    (gatherRowDims (N := N) hwf).start j idx 1 = 0 := by
  rfl

/-- On the column axis the offset coordinate is the result's column. -/
theorem gatherRowDims_offCoord1 (hwf) (j : (⟨2, ![E, C]⟩ : Shape).Idx) : (gatherRowDims (N := N) hwf).offCoord j 1 = (j 1).val := by
  rfl

/-- The row gather at the concrete dimension numbers, read at entry (e, c). -/
theorem gatherRowDims_apply {w : Nat} (hN : 0 < N) (hwf) (x : (⟨2, ![N, C]⟩ : Shape).Idx → α) (idx : IVec ⟨2, ![E, 1]⟩ w)
    (e : Fin E) (c : Fin C) :
    Host.gather (gatherRowDims (N := N) hwf) x idx (ix2 e c)
      = x (ix2 ⟨min (idx (ix2 e 0)).toInt.toNat (N - 1), by omega⟩ c) := by
  unfold Host.gather
  congr 1
  funext a
  refine Fin.ext ?_
  match a with
  | ⟨0, _⟩ =>
    -- the row axis: collapsed and not batching, so only the clamped start remains
    show (gatherRowDims (N := N) hwf).start (ix2 e c) idx 0 + (gatherRowDims (N := N) hwf).batchCoord (ix2 e c) 0
      + (gatherRowDims (N := N) hwf).offCoord (ix2 e c) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl)),
      gatherRowDims_start0]
    rfl
  | ⟨1, _⟩ =>
    -- the column axis: the start is zero, and the offset coordinate is the result's column
    show (gatherRowDims (N := N) hwf).start (ix2 e c) idx 1 + (gatherRowDims (N := N) hwf).batchCoord (ix2 e c) 1
      + (gatherRowDims (N := N) hwf).offCoord (ix2 e c) 1 = c.val
    rw [GatherDims.batchCoord_eq_zero _ _ _ List.not_mem_nil, gatherRowDims_start1, gatherRowDims_offCoord1]
    show 0 + 0 + c.val = c.val
    omega

end RowGather

/-- The row gather read at entry (e, c), for any dimension numbers whose lists are those of a row gather: the
    operand at the row the start index of `e` names (read signed, clamped into `[0, N − 1]`) and at column `c`. -/
theorem gather_rows_apply {α : Type} {N E C w : Nat} (hN : 0 < N)
    (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (e : Fin E) (c : Fin C) :
    Host.gather d x idx (ix2 e c) = x (ix2 ⟨min (idx (ix2 e 0)).toInt.toNat (N - 1), by omega⟩ c) := by
  cases d with
  | mk od cd ob sb sm iv ss wf =>
    dsimp only at h1 h2 h3 h4 h5 h6 h7
    subst h1 h2 h3 h4 h5 h6 h7
    exact gatherRowDims_apply hN wf x idx e c

end Cert.LibGatherRows

end
-- ==== Proof.LibScatterRows.lean ====
/-
  The host's accumulating scatter of ROWS, read over the extended reals.

  The scatter indices are a column of row numbers, one per update row; update row `e` is added to operand row
  `idx e` (read as a signed integer; a row number outside the operand drops the update). The scatter therefore acts
  on every column by itself: entry (n, c) of the result is entry (n, c) of the operand plus the sum of the entries
  (e, c) of the updates over the rows `e` whose index is `n`. Consequently, scattering the rows of two arrays set
  side by side and then cutting the result back into the two column ranges is the same as scattering each array.
-/
import Idealize.ShloMosaic.PureOps.Ideal.Laws
import Idealize.ShloMosaic.Lib.ValueIdx
import Idealize.ShloMosaic.Lib.Pipeline.Value

noncomputable section

open scoped BigOperators

namespace Cert.LibScatterRows

open Idealize.ShloMosaic Idealize.ShloMosaic.ValueIdx

section Coordinates

variable {N E C : Nat}

/-- The dimension numbers of a row scatter: the updates' second axis is the window, the operand's first axis is the
    scattered one, and each scatter index is one scalar. -/
abbrev rowDims (hwf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  { updateWindowDims := [1], insertedWindowDims := [0], scatterDimsToOperandDims := [0], indexVectorDim := 1, wf := hwf }

/-- On the row axis a row scatter has no window coordinate. -/
theorem rowDims_window0 (hwf) (j : (⟨2, ![E, C]⟩ : Shape).Idx) : (rowDims (N := N) hwf).window j 0 = 0 := by
  rfl

/-- On the column axis the window coordinate is the update's column. -/
theorem rowDims_window1 (hwf) (j : (⟨2, ![E, C]⟩ : Shape).Idx) : (rowDims (N := N) hwf).window j 1 = (j 1).val := by
  rfl

/-- On the column axis the window starts at zero. -/
theorem rowDims_start1 {w : Nat} (hwf) (j : (⟨2, ![E, C]⟩ : Shape).Idx) (idx : IVec ⟨2, ![E, 1]⟩ w) :
    (rowDims (N := N) hwf).start j idx 1 = 0 := by
  rfl

/-- On the row axis the window starts at the scatter index of the update's row, read as a signed integer. -/
theorem rowDims_start0 {w : Nat} (hwf) (j : (⟨2, ![E, C]⟩ : Shape).Idx) (idx : IVec ⟨2, ![E, 1]⟩ w) :
    (rowDims (N := N) hwf).start j idx 0 = (idx (ix2 (j 0) 0)).toInt := by
  have hs : (rowDims (N := N) hwf).siIdx j ⟨0, Nat.one_pos⟩ = ix2 (j 0) 0 := by
    funext b; apply Fin.ext
    match b with
    | ⟨0, _⟩ => rfl
    | ⟨1, _⟩ => rfl
  exact congrArg (fun k => (idx k).toInt) hs

/-- Where an update entry lands, from the four coordinate facts: entry `j` of the updates lands on entry (n, c) of the
    operand exactly when the scatter index of its row is `n` and its column is `c`. -/
theorem resultIdx_iff_of_coords {w : Nat} (d : ScatterDims ⟨2, ![N, C]⟩ ⟨2, ![E, 1]⟩ ⟨2, ![E, C]⟩)
    (j : (⟨2, ![E, C]⟩ : Shape).Idx) (idx : IVec ⟨2, ![E, 1]⟩ w)
    (s0 : d.start j idx 0 = (idx (ix2 (j 0) 0)).toInt) (s1 : d.start j idx 1 = 0)
    (w0 : d.window j 0 = 0) (w1 : d.window j 1 = (j 1).val) (n : Fin N) (c : Fin C) :
    d.resultIdx? j idx = some (ix2 n c) ↔ (idx (ix2 (j 0) 0)).toInt = (n.val : ℤ) ∧ (j 1).val = c.val := by
  have hjC := idx2_lt1 j
  have hn := n.isLt
  have hc := c.isLt
  unfold ScatterDims.resultIdx?
  split
  next h =>
    rw [Option.some.injEq]
    constructor
    · intro hf
      have e0 : (d.start j idx 0 + (d.window j 0 : ℕ)).toNat = n.val := congrArg Fin.val (congrFun hf 0)
      have e1 : (d.start j idx 1 + (d.window j 1 : ℕ)).toNat = c.val := congrArg Fin.val (congrFun hf 1)
      have h0 : 0 ≤ d.start j idx 0 + (d.window j 0 : ℕ) ∧ d.start j idx 0 + (d.window j 0 : ℕ) < (N : ℤ) := h 0
      rw [s0, w0] at e0 h0
      rw [s1, w1] at e1
      constructor <;> omega
    · rintro ⟨en, ec⟩
      funext a; apply Fin.ext
      match a with
      | ⟨0, _⟩ =>
        show (d.start j idx 0 + (d.window j 0 : ℕ)).toNat = n.val
        rw [s0, w0, en]; omega
      | ⟨1, _⟩ =>
        show (d.start j idx 1 + (d.window j 1 : ℕ)).toNat = c.val
        rw [s1, w1]; omega
  next h =>
    constructor
    · intro hf; exact absurd hf (by simp)
    · rintro ⟨en, ec⟩
      exfalso; apply h
      intro a
      match a with
      | ⟨0, _⟩ =>
        show 0 ≤ d.start j idx 0 + (d.window j 0 : ℕ) ∧ d.start j idx 0 + (d.window j 0 : ℕ) < (N : ℤ)
        rw [s0, w0, en]; omega
      | ⟨1, _⟩ =>
        show 0 ≤ d.start j idx 1 + (d.window j 1 : ℕ) ∧ d.start j idx 1 + (d.window j 1 : ℕ) < (C : ℤ)
        rw [s1, w1]; omega

end Coordinates

section RowScatter

variable {N E C : Nat}

/-- The row scatter at the concrete dimension numbers, read at entry (n, c): the operand's entry plus the sum, over
    the update rows whose scatter index is `n`, of the updates' entries in column `c`. -/
theorem scatterAdd_rowDims_apply {w : Nat} (hwf) (x : FVec Ideal ⟨2, ![N, C]⟩ .f32) (idx : IVec ⟨2, ![E, 1]⟩ w)
    (upd : FVec Ideal ⟨2, ![E, C]⟩ .f32) (n : Fin N) (c : Fin C) :
    Host.scatterAdd (rowDims (N := N) hwf) x idx upd (ix2 n c)
      = x (ix2 n c) + ∑ e : Fin E, if (idx (ix2 e 0)).toInt = (n.val : ℤ) then upd (ix2 e c) else 0 := by
  have key : ∀ (e : Fin E) (b : Fin C), (rowDims (N := N) hwf).resultIdx? (ix2 e b) idx = some (ix2 n c) ↔
      ((idx (ix2 e 0)).toInt = (n.val : ℤ) ∧ b = c) := by
    intro e b
    rw [resultIdx_iff_of_coords (rowDims (N := N) hwf) (ix2 e b) idx (rowDims_start0 hwf _ idx) (rowDims_start1 hwf _ idx)
      (rowDims_window0 hwf _) (rowDims_window1 hwf _) n c]
    exact and_congr Iff.rfl Fin.val_inj
  show x (ix2 n c) + ∑ j ∈ Finset.univ.filter (fun j => (rowDims (N := N) hwf).resultIdx? j idx = some (ix2 n c)), upd j = _
  refine congrArg (fun t => x (ix2 n c) + t) ?_
  rw [Finset.sum_filter, sum_idx2]
  refine Finset.sum_congr rfl fun e _ => ?_
  by_cases hn : (idx (ix2 e 0)).toInt = (n.val : ℤ)
  · rw [if_pos hn]
    rw [Finset.sum_eq_single c (fun b _ hb => if_neg (fun h => hb ((key e b).1 h).2))
      (fun h => absurd (Finset.mem_univ c) h)]
    exact if_pos ((key e c).2 ⟨hn, rfl⟩)
  · rw [if_neg hn]
    exact Finset.sum_eq_zero fun b _ => if_neg (fun h => hn ((key e b).1 h).1)

/-- The row scatter read at an entry, for any dimension numbers whose four lists are those of a row scatter: entry
    (n, c) of the result is the operand's entry plus the sum, over the update rows `e` whose scatter index (read as a
    signed integer) is `n`, of the updates' entry (e, c). An update row whose index is no row of the operand
    contributes to no entry. -/
theorem scatterAdd_rows_apply {N E C w : Nat} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : FVec Ideal ⟨2, ![N, C]⟩ .f32) (idx : IVec ⟨2, ![E, 1]⟩ w) (upd : FVec Ideal ⟨2, ![E, C]⟩ .f32)
    (n : Fin N) (c : Fin C) :
    Host.scatterAdd d x idx upd (ix2 n c)
      = x (ix2 n c) + ∑ e : Fin E, if (idx (ix2 e 0)).toInt = (n.val : ℤ) then upd (ix2 e c) else 0 := by
  cases d with
  | mk uw iw sd iv wf =>
    dsimp only at h1 h2 h3 h4
    subst h1 h2 h3 h4
    exact scatterAdd_rowDims_apply wf x idx upd n c

end RowScatter

section SideBySide

variable {N E C₁ C₂ Ct w : Nat}

/-- The dimension numbers `d` are those of a row scatter: the updates' second axis is the window, the operand's first
    axis is inserted and is the one the scatter indices address, and each scatter index is one scalar. -/
def IsRowScatter {N E C : Nat} (d : ScatterDims ⟨2, ![N, C]⟩ ⟨2, ![E, 1]⟩ ⟨2, ![E, C]⟩) : Prop :=
  d.updateWindowDims = [1] ∧ d.insertedWindowDims = [0] ∧ d.scatterDimsToOperandDims = [0] ∧ d.indexVectorDim = 1

/-- The row scatter read at an entry, with the four conditions on the dimension numbers bundled. -/
theorem scatterAdd_rows_apply' {C : Nat} {d : ScatterDims ⟨2, ![N, C]⟩ ⟨2, ![E, 1]⟩ ⟨2, ![E, C]⟩} (hd : IsRowScatter d)
    (x : FVec Ideal ⟨2, ![N, C]⟩ .f32) (idx : IVec ⟨2, ![E, 1]⟩ w) (upd : FVec Ideal ⟨2, ![E, C]⟩ .f32)
    (n : Fin N) (c : Fin C) :
    Host.scatterAdd d x idx upd (ix2 n c)
      = x (ix2 n c) + ∑ e : Fin E, if (idx (ix2 e 0)).toInt = (n.val : ℤ) then upd (ix2 e c) else 0 :=
  scatterAdd_rows_apply d hd.1 hd.2.1 hd.2.2.1 hd.2.2.2 x idx upd n c

/-- A scalar spread over a matrix is that scalar at every entry, whatever the matrix's extents. -/
theorem broadcast_scalar_apply {A B : Nat} (hb : (⟨0, ![]⟩ : Shape).BroadcastsInDim ⟨2, ![A, B]⟩ (![] : Fin 0 → Fin 2))
    (z : FVec Ideal ⟨0, ![]⟩ .f32) (j : (⟨2, ![A, B]⟩ : Shape).Idx) :
    broadcastInDim ⟨2, ![A, B]⟩ ![] hb z j = z (fun a => a.elim0) :=
  broadcastInDim_apply _ hb z j _ (fun a => a.elim0)

/-- Scattering the rows of two arrays set side by side, then keeping the FIRST array's columns, is scattering the
    first array's rows: a row scatter acts on each column by itself. The operand is one scalar at every entry. -/
theorem slice_left_scatterAdd_concat
    (dt : ScatterDims ⟨2, ![N, Ct]⟩ ⟨2, ![E, 1]⟩ ⟨2, ![E, Ct]⟩) (d₁ : ScatterDims ⟨2, ![N, C₁]⟩ ⟨2, ![E, 1]⟩ ⟨2, ![E, C₁]⟩)
    (ht : IsRowScatter dt) (h₁ : IsRowScatter d₁)
    (hbt : (⟨0, ![]⟩ : Shape).BroadcastsInDim ⟨2, ![N, Ct]⟩ (![] : Fin 0 → Fin 2))
    (hb₁ : (⟨0, ![]⟩ : Shape).BroadcastsInDim ⟨2, ![N, C₁]⟩ (![] : Fin 0 → Fin 2))
    (hcat : Shape.Concatenates [⟨2, ![E, C₁]⟩, ⟨2, ![E, C₂]⟩] ⟨2, ![E, Ct]⟩ 1)
    (hsl : (⟨2, ![N, Ct]⟩ : Shape).Slices ![0, 0] ⟨2, ![N, C₁]⟩)
    (z : FVec Ideal ⟨0, ![]⟩ .f32) (idx : IVec ⟨2, ![E, 1]⟩ w) (u : FVec Ideal ⟨2, ![E, C₁]⟩ .f32)
    (o : FVec Ideal ⟨2, ![E, C₂]⟩ .f32) :
    extractStridedSlice ⟨2, ![N, C₁]⟩ ![0, 0] (Host.scatterAdd dt (broadcastInDim ⟨2, ![N, Ct]⟩ ![] hbt z) idx
        (concatenate ⟨2, ![E, Ct]⟩ 1 [⟨⟨2, ![E, C₁]⟩, u⟩, ⟨⟨2, ![E, C₂]⟩, o⟩] hcat)) hsl
      = Host.scatterAdd d₁ (broadcastInDim ⟨2, ![N, C₁]⟩ ![] hb₁ z) idx u := by
  funext i
  obtain ⟨n, c, rfl⟩ : ∃ n c, i = ix2 n c := ⟨i 0, i 1, eq_ix2 i⟩
  -- the column, as a column of the wide array
  have hcl : c.val < Ct := by
    have h : 0 + C₁ ≤ Ct := hsl.2 1
    have := c.isLt
    omega
  rw [extractStridedSlice_apply ![0, 0] _ hsl (ix2 n c) (ix2 n ⟨c.val, hcl⟩)
    (fun a => by match a with | ⟨0, _⟩ => exact (Nat.zero_add _).symm | ⟨1, _⟩ => exact (Nat.zero_add _).symm)]
  rw [scatterAdd_rows_apply' ht, scatterAdd_rows_apply' h₁, broadcast_scalar_apply, broadcast_scalar_apply]
  refine congrArg (fun t => z (fun a => a.elim0) + t) (Finset.sum_congr rfl fun e _ => ?_)
  rw [concatenate_pair_apply_left 1 u o hcat (ix2 e ⟨c.val, hcl⟩) rfl (ix2 e c)
    (fun b => by match b with | ⟨0, _⟩ => rfl | ⟨1, _⟩ => rfl)]

/-- Scattering the rows of two arrays set side by side, then keeping the SECOND array's columns, is scattering the
    second array's rows. The operand is one scalar at every entry. -/
theorem slice_right_scatterAdd_concat
    (dt : ScatterDims ⟨2, ![N, Ct]⟩ ⟨2, ![E, 1]⟩ ⟨2, ![E, Ct]⟩) (d₂ : ScatterDims ⟨2, ![N, C₂]⟩ ⟨2, ![E, 1]⟩ ⟨2, ![E, C₂]⟩)
    (ht : IsRowScatter dt) (h₂ : IsRowScatter d₂)
    (hbt : (⟨0, ![]⟩ : Shape).BroadcastsInDim ⟨2, ![N, Ct]⟩ (![] : Fin 0 → Fin 2))
    (hb₂ : (⟨0, ![]⟩ : Shape).BroadcastsInDim ⟨2, ![N, C₂]⟩ (![] : Fin 0 → Fin 2))
    (hcat : Shape.Concatenates [⟨2, ![E, C₁]⟩, ⟨2, ![E, C₂]⟩] ⟨2, ![E, Ct]⟩ 1)
    (hsr : (⟨2, ![N, Ct]⟩ : Shape).Slices ![0, C₁] ⟨2, ![N, C₂]⟩)
    (z : FVec Ideal ⟨0, ![]⟩ .f32) (idx : IVec ⟨2, ![E, 1]⟩ w) (u : FVec Ideal ⟨2, ![E, C₁]⟩ .f32)
    (o : FVec Ideal ⟨2, ![E, C₂]⟩ .f32) :
    extractStridedSlice ⟨2, ![N, C₂]⟩ ![0, C₁] (Host.scatterAdd dt (broadcastInDim ⟨2, ![N, Ct]⟩ ![] hbt z) idx
        (concatenate ⟨2, ![E, Ct]⟩ 1 [⟨⟨2, ![E, C₁]⟩, u⟩, ⟨⟨2, ![E, C₂]⟩, o⟩] hcat)) hsr
      = Host.scatterAdd d₂ (broadcastInDim ⟨2, ![N, C₂]⟩ ![] hb₂ z) idx o := by
  funext i
  obtain ⟨n, c, rfl⟩ : ∃ n c, i = ix2 n c := ⟨i 0, i 1, eq_ix2 i⟩
  -- the column, as a column of the wide array: past the first array's columns
  have hcl : C₁ + c.val < Ct := by
    have h : C₁ + C₂ ≤ Ct := hsr.2 1
    have := c.isLt
    omega
  rw [extractStridedSlice_apply ![0, C₁] _ hsr (ix2 n c) (ix2 n ⟨C₁ + c.val, hcl⟩)
    (fun a => by match a with | ⟨0, _⟩ => exact (Nat.zero_add _).symm | ⟨1, _⟩ => rfl)]
  rw [scatterAdd_rows_apply' ht, scatterAdd_rows_apply' h₂, broadcast_scalar_apply, broadcast_scalar_apply]
  refine congrArg (fun t => z (fun a => a.elim0) + t) (Finset.sum_congr rfl fun e _ => ?_)
  rw [concatenate_pair_apply_right 1 u o hcat (ix2 e ⟨C₁ + c.val, hcl⟩) rfl rfl (ix2 e c)
    (fun b hb => by match b with | ⟨0, _⟩ => rfl | ⟨1, _⟩ => exact absurd rfl hb)
    (Nat.add_comm _ _)]

/-- The instance for 20000 nodes, 640000 edges and 128 message channels beside one column of ones: the first 128
    columns of the joint segment sum are the segment sum of the messages. -/
theorem slice_messages_scatterAdd
    (d129 : ScatterDims ⟨2, ![20000, 129]⟩ ⟨2, ![640000, 1]⟩ ⟨2, ![640000, 129]⟩)
    (d128 : ScatterDims ⟨2, ![20000, 128]⟩ ⟨2, ![640000, 1]⟩ ⟨2, ![640000, 128]⟩)
    (h129 : IsRowScatter d129) (h128 : IsRowScatter d128)
    (hb129 : (⟨0, ![]⟩ : Shape).BroadcastsInDim ⟨2, ![20000, 129]⟩ (![] : Fin 0 → Fin 2))
    (hb128 : (⟨0, ![]⟩ : Shape).BroadcastsInDim ⟨2, ![20000, 128]⟩ (![] : Fin 0 → Fin 2))
    (hcat : Shape.Concatenates [⟨2, ![640000, 128]⟩, ⟨2, ![640000, 1]⟩] ⟨2, ![640000, 129]⟩ 1)
    (hsl : (⟨2, ![20000, 129]⟩ : Shape).Slices ![0, 0] ⟨2, ![20000, 128]⟩)
    (z : FVec Ideal ⟨0, ![]⟩ .f32) (idx : IVec ⟨2, ![640000, 1]⟩ 32) (u : FVec Ideal ⟨2, ![640000, 128]⟩ .f32)
    (o : FVec Ideal ⟨2, ![640000, 1]⟩ .f32) :
    extractStridedSlice ⟨2, ![20000, 128]⟩ ![0, 0] (Host.scatterAdd d129 (broadcastInDim ⟨2, ![20000, 129]⟩ ![] hb129 z) idx
        (concatenate ⟨2, ![640000, 129]⟩ 1 [⟨⟨2, ![640000, 128]⟩, u⟩, ⟨⟨2, ![640000, 1]⟩, o⟩] hcat)) hsl
      = Host.scatterAdd d128 (broadcastInDim ⟨2, ![20000, 128]⟩ ![] hb128 z) idx u :=
  slice_left_scatterAdd_concat d129 d128 h129 h128 hb129 hb128 hcat hsl z idx u o

/-- The same instance's last column: it is the segment sum of the ones, the number of edges arriving at each node. -/
theorem slice_ones_scatterAdd
    (d129 : ScatterDims ⟨2, ![20000, 129]⟩ ⟨2, ![640000, 1]⟩ ⟨2, ![640000, 129]⟩)
    (d1 : ScatterDims ⟨2, ![20000, 1]⟩ ⟨2, ![640000, 1]⟩ ⟨2, ![640000, 1]⟩)
    (h129 : IsRowScatter d129) (h1 : IsRowScatter d1)
    (hb129 : (⟨0, ![]⟩ : Shape).BroadcastsInDim ⟨2, ![20000, 129]⟩ (![] : Fin 0 → Fin 2))
    (hb1 : (⟨0, ![]⟩ : Shape).BroadcastsInDim ⟨2, ![20000, 1]⟩ (![] : Fin 0 → Fin 2))
    (hcat : Shape.Concatenates [⟨2, ![640000, 128]⟩, ⟨2, ![640000, 1]⟩] ⟨2, ![640000, 129]⟩ 1)
    (hsr : (⟨2, ![20000, 129]⟩ : Shape).Slices ![0, 128] ⟨2, ![20000, 1]⟩)
    (z : FVec Ideal ⟨0, ![]⟩ .f32) (idx : IVec ⟨2, ![640000, 1]⟩ 32) (u : FVec Ideal ⟨2, ![640000, 128]⟩ .f32)
    (o : FVec Ideal ⟨2, ![640000, 1]⟩ .f32) :
    extractStridedSlice ⟨2, ![20000, 1]⟩ ![0, 128] (Host.scatterAdd d129 (broadcastInDim ⟨2, ![20000, 129]⟩ ![] hb129 z) idx
        (concatenate ⟨2, ![640000, 129]⟩ 1 [⟨⟨2, ![640000, 128]⟩, u⟩, ⟨⟨2, ![640000, 1]⟩, o⟩] hcat)) hsr
      = Host.scatterAdd d1 (broadcastInDim ⟨2, ![20000, 1]⟩ ![] hb1 z) idx o :=
  slice_right_scatterAdd_concat d129 d1 h129 h1 hb129 hb1 hcat hsr z idx u o

end SideBySide

end Cert.LibScatterRows

end
-- ==== Proof.RefValue.lean ====
/-
  The reference's result read at an entry.

  Its last operation scatters the scaled message rows onto their destination rows: entry (d, o) is zero plus the sum,
  over the edges whose destination is `d`, of the edge's weight times the gathered projected row of its source at channel
  `o`; the gather reads the row the (wrapped) source names, clamped into the rows; the projected array is the node array
  times the weight, contracted over the input channels.
-/
import proofs.«423122_j58557584113800_2_alg».proof.Proof.Gen.ReferenceIdeal.Read
import proofs.«423122_j58557584113800_2_alg».proof.Proof.LibGatherRows
import proofs.«423122_j58557584113800_2_alg».proof.Proof.LibScatterRows
import proofs.«423122_j58557584113800_2_alg».proof.Proof.Spec
import Idealize.ShloMosaic.PureOps.Ideal.Laws
import Idealize.ShloMosaic.Lib.ValueIdx
import Idealize.ShloMosaic.Lib.Pipeline.Value

noncomputable section

open scoped BigOperators

namespace Cert.ReferenceIdeal.RefValue

open Cert.ReferenceIdeal Cert.ReferenceIdeal.Gen Idealize.ShloMosaic Idealize.ShloMosaic.ValueIdx

section Stages

variable (x : FVec Ideal ⟨2, ![10000, 128]⟩ .f32) (W : FVec Ideal ⟨2, ![128, 128]⟩ .f32)
  (src dst : IVec ⟨1, ![640000]⟩ 32) (val : FVec Ideal ⟨1, ![640000]⟩ .f32)

/-- The scatter's operand is zero at every entry. -/
theorem v11_apply (d : Fin 10000) (o : Fin 128) : Read.val_main_v11 (F := Ideal) (ix2 d o) = 0 := by
  rw [Read.val_main_v11_apply, Read.val_main_cst_apply, Ideal.ofBits_def, Ideal.ofBits_zero_f32]

/-- The scatter index of edge `e` is its destination. -/
theorem v12_apply (e : Fin 640000) : Read.val_main_v12 (F := Ideal) dst (ix2 e 0) = dst (ix1 e) := by
  rw [Read.val_main_v12_apply]
  exact congrArg dst (funext fun a => by match a with | ⟨0, _⟩ => rfl)

/-- The weight of edge `e`, spread over the channels. -/
theorem v9_apply (e : Fin 640000) (o : Fin 128) : Read.val_main_v9 (F := Ideal) val (ix2 e o) = val (ix1 e) := by
  rw [Read.val_main_v9_apply, Read.val_main_v1_apply]
  exact congrArg val (funext fun a => by match a with | ⟨0, _⟩ => rfl)

/-- The gather's start index of edge `e` is its source, a negative one wrapped by the number of nodes. -/
theorem v7_apply (e : Fin 640000) :
    Read.val_main_v7 (F := Ideal) src (ix2 e 0) = Cert.Spec.wrapIdx (src (ix1 e)) := by
  have hi : Read.idx_main_v7 (ix2 e (0 : Fin 1)) = ix1 e := funext fun a => by match a with | ⟨0, _⟩ => rfl
  rw [Read.val_main_v7_apply, hi, Read.val_main_v6_apply, Read.val_main_v3_apply, Read.val_main_v5_apply,
    Read.val_main_v2_apply, Read.val_main_v4_apply, Read.val_main_c_apply, Read.val_main_c_0_apply]
  rfl

/-- The projected node array at row `n`, channel `o`: the contraction over the input channels. -/
theorem v0_apply (n : Fin 10000) (o : Fin 128) :
    Read.val_main_v0 (F := Ideal) x W (ix2 n o) = Cert.Spec.featR x W n o := by
  rw [Read.val_main_v0_apply]
  unfold Cert.Spec.featR
  refine Finset.sum_congr rfl fun k _ => ?_
  have hl : Read.lidx_main_v0 (ix2 n o) k = ix2 n k :=
    funext fun a => by match a with | ⟨0, _⟩ => rfl | ⟨1, _⟩ => rfl
  have hr : Read.ridx_main_v0 (ix2 n o) k = ix2 o k :=
    funext fun a => by match a with | ⟨0, _⟩ => rfl | ⟨1, _⟩ => rfl
  rw [hl, hr]

/-- The gathered row of edge `e` at channel `o`: the projected row the wrapped source names, clamped into the rows. -/
theorem v8_apply (e : Fin 640000) (o : Fin 128) :
    Read.val_main_v8 (F := Ideal) x W src (ix2 e o)
      = Cert.Spec.featR x W (Cert.Spec.clampRow (Cert.Spec.wrapIdx (src (ix1 e)))) o := by
  unfold Read.val_main_v8
  refine (Cert.LibGatherRows.gather_rows_apply (by decide)
    gather_S10000x128_S640000x1_S640000x128_1_0_n_n_0_1_1128 rfl rfl rfl rfl rfl rfl rfl
    (Read.val_main_v0 (F := Ideal) x W) (Read.val_main_v7 (F := Ideal) src) e o).trans ?_
  -- the clamped row is the specification's, the start index being the wrapped source
  have hn : (⟨min (Read.val_main_v7 (F := Ideal) src (ix2 e 0)).toInt.toNat (10000 - 1), by omega⟩ : Fin 10000)
      = Cert.Spec.clampRow (Cert.Spec.wrapIdx (src (ix1 e))) :=
    Fin.ext (congrArg (fun b : BitVec 32 => min b.toInt.toNat (10000 - 1)) (v7_apply src e))
  exact (congrArg (fun n => Read.val_main_v0 (F := Ideal) x W (ix2 n o)) hn).trans (v0_apply x W _ o)

/-- The update of edge `e` at channel `o`: its weight times its gathered row. -/
theorem v10_apply (e : Fin 640000) (o : Fin 128) :
    Read.val_main_v10 (F := Ideal) x W src val (ix2 e o)
      = val (ix1 e) * Cert.Spec.featR x W (Cert.Spec.clampRow (Cert.Spec.wrapIdx (src (ix1 e)))) o := by
  rw [Read.val_main_v10_apply, Ideal.mulf_def, v9_apply, v8_apply]

end Stages

/-- The reference's last stage at entry (d, o) is the specification's `refOut`. -/
theorem ref_apply (x : FVec Ideal ⟨2, ![10000, 128]⟩ .f32) (W : FVec Ideal ⟨2, ![128, 128]⟩ .f32)
    (src dst : IVec ⟨1, ![640000]⟩ 32) (val : FVec Ideal ⟨1, ![640000]⟩ .f32) (d : Fin 10000) (o : Fin 128) :
    Cert.ReferenceIdeal.Read.val_main_v13 (F := Ideal) x W src dst val (ix2 d o) = Cert.Spec.refOut x W src dst val d o := by
  unfold Cert.ReferenceIdeal.Read.val_main_v13
  refine (Cert.LibScatterRows.scatterAdd_rows_apply scatter_S10000x128_S640000x1_S640000x128_1_0_0_1 rfl rfl rfl rfl
    (Read.val_main_v11 (F := Ideal)) (Read.val_main_v12 (F := Ideal) dst) (Read.val_main_v10 (F := Ideal) x W src val)
    d o).trans ?_
  unfold Cert.Spec.refOut
  rw [v11_apply]
  refine congrArg (fun t => (0 : EReal) + t) (Finset.sum_congr rfl fun e _ => ?_)
  rw [v12_apply, v10_apply]

end Cert.ReferenceIdeal.RefValue

end
-- ==== Proof.lean ====
/-
  A graph layer: node features are projected by a weight, and every edge adds its weight times the projected row of its
  source onto the row of its destination.

  The kernel computes it densely. It pads the 10000 node rows with zero rows to 10112, projects them in a first region
  (two blocks of rows, each times the transposed weight), adds the edge weights into a flat array at the positions
  `dst · 10112 + src`, reads that array as a 10112 × 10112 adjacency, multiplies the adjacency by the projected array in a
  second region (sixteen blocks of rows), and keeps the first 10000 rows. The reference gathers, scales and scatters edge
  by edge. Over the extended reals, for real inputs and for sources and destinations that are node numbers, both give at
  destination `d` and channel `o` the sum over the edges arriving at `d` of the edge's weight times the projected source
  row at `o`: the flat position determines destination and source, padding rows are never a source, and a real factor
  distributes over a finite sum of reals.

  The frames of the two kernel programs are the generated ones; the reference's frame is its generated run with the
  result dropped. The ideal pass rewrote nothing, so there is nothing to preserve. For the equation, the kernel's run is
  the generated launch with the result buffer named, its value is read through the two regions and the host operations
  around them, the reference's value is read off its generated run, and the two meet in the specification's equation.
-/
import proofs.«423122_j58557584113800_2_alg».proof.Defs
import proofs.«423122_j58557584113800_2_alg».proof.Proof.Gen.Kernel
import proofs.«423122_j58557584113800_2_alg».proof.Proof.Gen.Kernel.Skeleton
import proofs.«423122_j58557584113800_2_alg».proof.Proof.Gen.Kernel.Launch
import proofs.«423122_j58557584113800_2_alg».proof.Proof.Gen.Kernel.Points
import proofs.«423122_j58557584113800_2_alg».proof.Proof.Gen.Kernel.Frame
import proofs.«423122_j58557584113800_2_alg».proof.Proof.Gen.KernelIdeal
import proofs.«423122_j58557584113800_2_alg».proof.Proof.Gen.KernelIdeal.Skeleton
import proofs.«423122_j58557584113800_2_alg».proof.Proof.Gen.KernelIdeal.Launch
import proofs.«423122_j58557584113800_2_alg».proof.Proof.Gen.KernelIdeal.Points
import proofs.«423122_j58557584113800_2_alg».proof.Proof.Gen.KernelIdeal.Frame
import proofs.«423122_j58557584113800_2_alg».proof.Proof.Gen.ReferenceIdeal
import proofs.«423122_j58557584113800_2_alg».proof.Proof.Gen.Pre_finite_inputs
import proofs.«423122_j58557584113800_2_alg».proof.Proof.Gen.ReferenceIdeal.Run
import proofs.«423122_j58557584113800_2_alg».proof.Proof.Gen.ReferenceIdeal.Read
import proofs.«423122_j58557584113800_2_alg».proof.Proof.KernelRun
import proofs.«423122_j58557584113800_2_alg».proof.Proof.KernelValue
import proofs.«423122_j58557584113800_2_alg».proof.Proof.RefValue
import proofs.«423122_j58557584113800_2_alg».proof.Proof.Spec
import proofs.«423122_j58557584113800_2_alg».proof.Proof.PreDecode
import Idealize.ShloMosaic.Adequacy
import Idealize.ShloMosaic.Init

noncomputable section

namespace Cert.Proof

open Idealize.ShloMosaic Idealize.SL.Sem Idealize.ShloMosaic.ValueIdx

/-- The word-level kernel runs and leaves its arguments: the generated frame. -/
theorem frame_kernel : Cert.frame_Kernel := fun m ρ _ => Cert.Kernel.Gen.frame m ρ

/-- The idealized kernel runs and leaves its arguments: the generated frame. -/
theorem frame_kernelIdeal : Cert.frame_KernelIdeal := fun m ρ _ => Cert.KernelIdeal.Gen.frame m ρ

/-- The reference runs and leaves its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the same result: at every destination and channel the kernel's dense product and the
    reference's sum over edges are the specification's two functions, equal on the inputs' domain. -/
theorem algebraic : Cert.algebraic_KernelIdeal_ReferenceIdeal := by
  intro m ρ m' ρ' hpre hagree
  refine ⟨fun c => Cert.KernelIdeal.Gen.W6 m ρ c (Proc.devRef .tc Cert.KernelIdeal.main_v11),
    Cert.KernelIdeal.RunNamed.run_named m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [a0, a1, a2, a3, a4, Cert.ReferenceIdeal.Read.val_main_v13_eq]
  funext i
  obtain ⟨d, o, rfl⟩ : ∃ (d : Fin 10000) (o : Fin 128), i = ix2 d o := ⟨i 0, i 1, eq_ix2 i⟩
  exact (Cert.ReferenceIdeal.RefValue.ref_apply _ _ _ _ _ d o).trans
    ((Cert.Spec.kernelOut_eq_refOut _ _ _ _ _ (Cert.PreDecode.dom_of_pre _ _ _ _ _ (hpre c)) d o).symm.trans
      (Cert.KernelIdeal.KValue.result_apply m ρ c d o).symm)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
